-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x64x256x256 : Shape := ⟨5, ![8, 1, 64, 256, 256]⟩
abbrev S256x4096 : Shape := ⟨2, ![256, 4096]⟩
abbrev S256 : Shape := ⟨1, ![256]⟩
abbrev S1x1024x256 : Shape := ⟨3, ![1, 1024, 256]⟩
abbrev S256x256 : Shape := ⟨2, ![256, 256]⟩
abbrev S1024x1024 : Shape := ⟨2, ![1024, 1024]⟩
abbrev S4096x256 : Shape := ⟨2, ![4096, 256]⟩
abbrev S4096 : Shape := ⟨1, ![4096]⟩
abbrev S_ : Shape := ⟨0, ![]⟩

class Facts : Prop where
  bcast_S_S8x1x64x256x256 : S_.BroadcastsInDim S8x1x64x256x256 (![] : Fin 0 → Fin S8x1x64x256x256.rank)
  reducesTo_S8x1x64x256x256_S_d0_1_2_3_4 : S8x1x64x256x256.ReducesTo [0, 1, 2, 3, 4] S_
  h_S_ : 0 < S_.numel
  bcast_S_S256x4096 : S_.BroadcastsInDim S256x4096 (![] : Fin 0 → Fin S256x4096.rank)
  reducesTo_S256x4096_S_d0_1 : S256x4096.ReducesTo [0, 1] S_
  bcast_S_S256 : S_.BroadcastsInDim S256 (![] : Fin 0 → Fin S256.rank)
  reducesTo_S256_S_d0 : S256.ReducesTo [0] S_
  bcast_S_S1x1024x256 : S_.BroadcastsInDim S1x1024x256 (![] : Fin 0 → Fin S1x1024x256.rank)
  reducesTo_S1x1024x256_S_d0_1_2 : S1x1024x256.ReducesTo [0, 1, 2] S_
  bcast_S_S256x256 : S_.BroadcastsInDim S256x256 (![] : Fin 0 → Fin S256x256.rank)
  reducesTo_S256x256_S_d0_1 : S256x256.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S4096x256 : S_.BroadcastsInDim S4096x256 (![] : Fin 0 → Fin S4096x256.rank)
  reducesTo_S4096x256_S_d0_1 : S4096x256.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S4096x256 .f32) (main_arg8 : FVec F S4096 .f32) (main_v33 : IVec S_ 1) : IVec S_ 1 :=
  let main_v34 : FVec F S4096x256 .f32 := Host.absf main_arg7
  let main_cst_12 : FVec F S_ .f32 := constant S_ .f32 0x7F800000#32
  let main_v35 : FVec F S4096x256 .f32 := broadcastInDim S4096x256 ![] bcast_S_S4096x256 main_cst_12
  let main_v36 : IVec S4096x256 1 := cmpf .olt main_v34 main_v35
  let main_c_13 : IVec S_ 1 := constantI S_ 1 1#1
  let main_v37 : IVec S_ 1 := (fun x v => Host.reduce IntOp.andi x v reducesTo_S4096x256_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  main_v43

def fn_part1 {F : FTy → Type} [FloatOps F] (main_arg4 : FVec F S256x256 .f32) (main_arg5 : FVec F S1024x1024 .f32) (main_arg6 : FVec F S256x256 .f32) (main_arg7 : FVec F S4096x256 .f32) (main_arg8 : FVec F S4096 .f32) (main_v13 : IVec S_ 1) (main_v16 : IVec S1x1024x256 1) : IVec S_ 1 :=
  let main_c_5 : IVec S_ 1 := constantI S_ 1 1#1
  let main_v17 : IVec S_ 1 := (fun x v => Host.reduce IntOp.andi x v reducesTo_S1x1024x256_S_d0_1_2 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_v33

def fn {F : FTy → Type} [FloatOps F] (main_arg0 : FVec F S8x1x64x256x256 .f32) (main_arg1 : FVec F S256x4096 .f32) (main_arg2 : FVec F S256 .f32) (main_arg3 : FVec F S1x1024x256 .f32) (main_arg4 : FVec F S256x256 .f32) (main_arg5 : FVec F S1024x1024 .f32) (main_arg6 : FVec F S256x256 .f32) (main_arg7 : FVec F S4096x256 .f32) (main_arg8 : FVec F S4096 .f32) : IVec S_ 1 :=
  let main_v0 : FVec F S8x1x64x256x256 .f32 := Host.absf main_arg0
  let main_cst : FVec F S_ .f32 := constant S_ .f32 0x7F800000#32
  let main_v1 : FVec F S8x1x64x256x256 .f32 := broadcastInDim S8x1x64x256x256 ![] bcast_S_S8x1x64x256x256 main_cst
  let main_v2 : IVec S8x1x64x256x256 1 := cmpf .olt main_v0 main_v1
  let main_c : IVec S_ 1 := constantI S_ 1 1#1
  let main_v3 : IVec S_ 1 := (fun x v => Host.reduce IntOp.andi x v reducesTo_S8x1x64x256x256_S_d0_1_2_3_4 h_S_) main_v2 main_c
  let main_v4 : FVec F S256x4096 .f32 := Host.absf main_arg1
  let main_cst_0 : FVec F S_ .f32 := constant S_ .f32 0x7F800000#32
  let main_v5 : FVec F S256x4096 .f32 := broadcastInDim S256x4096 ![] bcast_S_S256x4096 main_cst_0
  let main_v6 : IVec S256x4096 1 := cmpf .olt main_v4 main_v5
  let main_c_1 : IVec S_ 1 := constantI S_ 1 1#1
  let main_v7 : IVec S_ 1 := (fun x v => Host.reduce IntOp.andi x v reducesTo_S256x4096_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S1x1024x256 .f32 := Host.absf main_arg3
  let main_cst_4 : FVec F S_ .f32 := constant S_ .f32 0x7F800000#32
  let main_v15 : FVec F S1x1024x256 .f32 := broadcastInDim S1x1024x256 ![] bcast_S_S1x1024x256 main_cst_4
  let main_v16 : IVec S1x1024x256 1 := cmpf .olt main_v14 main_v15
  fn_part1 (F := F) main_arg4 main_arg5 main_arg6 main_arg7 main_arg8 main_v13 main_v16
-- ==== Kernel.lean ====
abbrev S8x1x64x256x256 : Shape := ⟨5, ![8, 1, 64, 256, 256]⟩
abbrev S256x4096 : Shape := ⟨2, ![256, 4096]⟩
abbrev S256 : Shape := ⟨1, ![256]⟩
abbrev S1x1024x256 : Shape := ⟨3, ![1, 1024, 256]⟩
abbrev S256x256 : Shape := ⟨2, ![256, 256]⟩
abbrev S1024x1024 : Shape := ⟨2, ![1024, 1024]⟩
abbrev S4096x256 : Shape := ⟨2, ![4096, 256]⟩
abbrev S4096 : Shape := ⟨1, ![4096]⟩
abbrev S8x64x32x8x32x8 : Shape := ⟨6, ![8, 64, 32, 8, 32, 8]⟩
abbrev S8x32x32x64x8x8 : Shape := ⟨6, ![8, 32, 32, 64, 8, 8]⟩
abbrev S8x1024x4096 : Shape := ⟨3, ![8, 1024, 4096]⟩
abbrev S256x1 : Shape := ⟨2, ![256, 1]⟩
abbrev S4 : Shape := ⟨1, ![4]⟩
abbrev S1x4 : Shape := ⟨2, ![1, 4]⟩
abbrev S_ : Shape := ⟨0, ![]⟩
abbrev S256x4 : Shape := ⟨2, ![256, 4]⟩
abbrev S4x1 : Shape := ⟨2, ![4, 1]⟩
abbrev S1x256 : Shape := ⟨2, ![1, 256]⟩
abbrev S4x256 : Shape := ⟨2, ![4, 256]⟩
abbrev S8x1024x256 : Shape := ⟨3, ![8, 1024, 256]⟩
abbrev S8x1024x4 : Shape := ⟨3, ![8, 1024, 4]⟩
abbrev S1x256x4096 : Shape := ⟨3, ![1, 256, 4096]⟩
abbrev S1x256x256 : Shape := ⟨3, ![1, 256, 256]⟩
abbrev S1x256x4 : Shape := ⟨3, ![1, 256, 4]⟩
abbrev S1x1024x4 : Shape := ⟨3, ![1, 1024, 4]⟩
abbrev S256x1024 : Shape := ⟨2, ![256, 1024]⟩
abbrev S1024x4 : Shape := ⟨2, ![1024, 4]⟩
abbrev S1x4096 : Shape := ⟨2, ![1, 4096]⟩

abbrev nBuf : Space → Nat
  | .hbm => 88
  | .vmem => 24
  | .smem => 0
  | _ => 0

abbrev bufTy : (tb : Table) → Fin (tcTables nBuf tb) → BufTy
  | .hbm, ⟨0, _⟩ => ⟨S8x1x64x256x256, .f32⟩
  | .hbm, ⟨1, _⟩ => ⟨S256x4096, .f32⟩
  | .hbm, ⟨2, _⟩ => ⟨S256, .f32⟩
  | .hbm, ⟨3, _⟩ => ⟨S1x1024x256, .f32⟩
  | .hbm, ⟨4, _⟩ => ⟨S256x256, .f32⟩
  | .hbm, ⟨5, _⟩ => ⟨S1024x1024, .f32⟩
  | .hbm, ⟨6, _⟩ => ⟨S256x256, .f32⟩
  | .hbm, ⟨7, _⟩ => ⟨S4096x256, .f32⟩
  | .hbm, ⟨8, _⟩ => ⟨S4096, .f32⟩
  | .hbm, ⟨9, _⟩ => ⟨S8x64x32x8x32x8, .f32⟩
  | .hbm, ⟨10, _⟩ => ⟨S8x32x32x64x8x8, .f32⟩
  | .hbm, ⟨11, _⟩ => ⟨S8x1024x4096, .f32⟩
  | .hbm, ⟨12, _⟩ => ⟨S8x1024x4096, .bf16⟩
  | .hbm, ⟨13, _⟩ => ⟨S4096x256, .f32⟩
  | .hbm, ⟨14, _⟩ => ⟨S4096x256, .bf16⟩
  | .hbm, ⟨15, _⟩ => ⟨S256x256, .f32⟩
  | .hbm, ⟨16, _⟩ => ⟨S256x256, .bf16⟩
  | .hbm, ⟨17, _⟩ => ⟨S256x256, .f32⟩
  | .hbm, ⟨18, _⟩ => ⟨S256x256, .bf16⟩
  | .hbm, ⟨19, _⟩ => ⟨S256x4096, .f32⟩
  | .hbm, ⟨20, _⟩ => ⟨S256x4096, .bf16⟩
  | .hbm, ⟨21, _⟩ => ⟨S1024x1024, .bf16⟩
  | .hbm, ⟨22, _⟩ => ⟨S256, .i32⟩
  | .hbm, ⟨23, _⟩ => ⟨S256x1, .i32⟩
  | .hbm, ⟨24, _⟩ => ⟨S4, .i32⟩
  | .hbm, ⟨25, _⟩ => ⟨S1x4, .i32⟩
  | .hbm, ⟨26, _⟩ => ⟨S_, .i32⟩
  | .hbm, ⟨27, _⟩ => ⟨S_, .i32⟩
  | .hbm, ⟨28, _⟩ => ⟨S256x1, .i32⟩
  | .hbm, ⟨29, _⟩ => ⟨S256x1, .i32⟩
  | .hbm, ⟨30, _⟩ => ⟨S256x1, .i32⟩
  | .hbm, ⟨31, _⟩ => ⟨S_, .i32⟩
  | .hbm, ⟨32, _⟩ => ⟨S256x1, .i32⟩
  | .hbm, ⟨33, _⟩ => ⟨S256x1, .i1⟩
  | .hbm, ⟨34, _⟩ => ⟨S256x1, .i32⟩
  | .hbm, ⟨35, _⟩ => ⟨S256x1, .i32⟩
  | .hbm, ⟨36, _⟩ => ⟨S_, .i32⟩
  | .hbm, ⟨37, _⟩ => ⟨S256x1, .i32⟩
  | .hbm, ⟨38, _⟩ => ⟨S256x1, .i1⟩
  | .hbm, ⟨39, _⟩ => ⟨S256x1, .i1⟩
  | .hbm, ⟨40, _⟩ => ⟨S_, .i32⟩
  | .hbm, ⟨41, _⟩ => ⟨S256x1, .i32⟩
  | .hbm, ⟨42, _⟩ => ⟨S256x1, .i32⟩
  | .hbm, ⟨43, _⟩ => ⟨S256x1, .i32⟩
  | .hbm, ⟨44, _⟩ => ⟨S256x4, .i32⟩
  | .hbm, ⟨45, _⟩ => ⟨S256x4, .i32⟩
  | .hbm, ⟨46, _⟩ => ⟨S256x4, .i1⟩
  | .hbm, ⟨47, _⟩ => ⟨S_, .f32⟩
  | .hbm, ⟨48, _⟩ => ⟨S_, .f32⟩
  | .hbm, ⟨49, _⟩ => ⟨S256x4, .f32⟩
  | .hbm, ⟨50, _⟩ => ⟨S256x4, .f32⟩
  | .hbm, ⟨51, _⟩ => ⟨S256x4, .f32⟩
  | .hbm, ⟨52, _⟩ => ⟨S4, .i32⟩
  | .hbm, ⟨53, _⟩ => ⟨S4x1, .i32⟩
  | .hbm, ⟨54, _⟩ => ⟨S256, .i32⟩
  | .hbm, ⟨55, _⟩ => ⟨S1x256, .i32⟩
  | .hbm, ⟨56, _⟩ => ⟨S_, .i32⟩
  | .hbm, ⟨57, _⟩ => ⟨S_, .i32⟩
  | .hbm, ⟨58, _⟩ => ⟨S1x256, .i32⟩
  | .hbm, ⟨59, _⟩ => ⟨S1x256, .i32⟩
  | .hbm, ⟨60, _⟩ => ⟨S1x256, .i32⟩
  | .hbm, ⟨61, _⟩ => ⟨S_, .i32⟩
  | .hbm, ⟨62, _⟩ => ⟨S1x256, .i32⟩
  | .hbm, ⟨63, _⟩ => ⟨S1x256, .i1⟩
  | .hbm, ⟨64, _⟩ => ⟨S1x256, .i32⟩
  | .hbm, ⟨65, _⟩ => ⟨S1x256, .i32⟩
  | .hbm, ⟨66, _⟩ => ⟨S_, .i32⟩
  | .hbm, ⟨67, _⟩ => ⟨S1x256, .i32⟩
  | .hbm, ⟨68, _⟩ => ⟨S1x256, .i1⟩
  | .hbm, ⟨69, _⟩ => ⟨S1x256, .i1⟩
  | .hbm, ⟨70, _⟩ => ⟨S_, .i32⟩
  | .hbm, ⟨71, _⟩ => ⟨S1x256, .i32⟩
  | .hbm, ⟨72, _⟩ => ⟨S1x256, .i32⟩
  | .hbm, ⟨73, _⟩ => ⟨S1x256, .i32⟩
  | .hbm, ⟨74, _⟩ => ⟨S4x256, .i32⟩
  | .hbm, ⟨75, _⟩ => ⟨S4x256, .i32⟩
  | .hbm, ⟨76, _⟩ => ⟨S4x256, .i1⟩
  | .hbm, ⟨77, _⟩ => ⟨S_, .f32⟩
  | .hbm, ⟨78, _⟩ => ⟨S_, .f32⟩
  | .hbm, ⟨79, _⟩ => ⟨S4x256, .f32⟩
  | .hbm, ⟨80, _⟩ => ⟨S4x256, .f32⟩
  | .hbm, ⟨81, _⟩ => ⟨S4x256, .f32⟩
  | .hbm, ⟨82, _⟩ => ⟨S8x1024x256, .bf16⟩
  | .hbm, ⟨83, _⟩ => ⟨S8x1024x4, .f32⟩
  | .hbm, ⟨84, _⟩ => ⟨S8x1024x4096, .f32⟩
  | .hbm, ⟨85, _⟩ => ⟨S8x32x32x64x8x8, .f32⟩
  | .hbm, ⟨86, _⟩ => ⟨S8x64x32x8x32x8, .f32⟩
  | .hbm, ⟨87, _⟩ => ⟨S8x1x64x256x256, .f32⟩
  | .local _ .vmem, ⟨0, _⟩ => ⟨S1x256x4096, .bf16⟩
  | .local _ .vmem, ⟨1, _⟩ => ⟨S1x256x4096, .bf16⟩
  | .local _ .vmem, ⟨2, _⟩ => ⟨S4096x256, .bf16⟩
  | .local _ .vmem, ⟨3, _⟩ => ⟨S256, .f32⟩
  | .local _ .vmem, ⟨4, _⟩ => ⟨S1x256x256, .f32⟩
  | .local _ .vmem, ⟨5, _⟩ => ⟨S1x256x256, .f32⟩
  | .local _ .vmem, ⟨6, _⟩ => ⟨S256x256, .bf16⟩
  | .local _ .vmem, ⟨7, _⟩ => ⟨S256x4, .f32⟩
  | .local _ .vmem, ⟨8, _⟩ => ⟨S1x256x256, .bf16⟩
  | .local _ .vmem, ⟨9, _⟩ => ⟨S1x256x256, .bf16⟩
  | .local _ .vmem, ⟨10, _⟩ => ⟨S1x256x4, .f32⟩
  | .local _ .vmem, ⟨11, _⟩ => ⟨S1x256x4, .f32⟩
  | .local _ .vmem, ⟨12, _⟩ => ⟨S1x1024x4, .f32⟩
  | .local _ .vmem, ⟨13, _⟩ => ⟨S1x1024x4, .f32⟩
  | .local _ .vmem, ⟨14, _⟩ => ⟨S256x1024, .bf16⟩
  | .local _ .vmem, ⟨15, _⟩ => ⟨S256x1024, .bf16⟩
  | .local _ .vmem, ⟨16, _⟩ => ⟨S1x256x256, .bf16⟩
  | .local _ .vmem, ⟨17, _⟩ => ⟨S1x256x256, .bf16⟩
  | .local _ .vmem, ⟨18, _⟩ => ⟨S256x256, .bf16⟩
  | .local _ .vmem, ⟨19, _⟩ => ⟨S4x256, .f32⟩
  | .local _ .vmem, ⟨20, _⟩ => ⟨S256x4096, .bf16⟩
  | .local _ .vmem, ⟨21, _⟩ => ⟨S4096, .f32⟩
  | .local _ .vmem, ⟨22, _⟩ => ⟨S1x256x4096, .f32⟩
  | .local _ .vmem, ⟨23, _⟩ => ⟨S1x256x4096, .f32⟩
  | _, _ => ⟨S8x1x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_c : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_0 : Ref sig .tc := ⟨.hbm, 40, rfl⟩
abbrev main_call0_v12 : Ref sig .tc := ⟨.hbm, 41, rfl⟩
abbrev main_call0_v13 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst : Ref sig .tc := ⟨.hbm, 47, rfl⟩
abbrev main_cst_0 : Ref sig .tc := ⟨.hbm, 48, rfl⟩
abbrev main_call1_v0 : Ref sig .tc := ⟨.hbm, 49, rfl⟩
abbrev main_call1_v1 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_c_1 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_c : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_0 : Ref sig .tc := ⟨.hbm, 70, rfl⟩
abbrev main_call2_v12 : Ref sig .tc := ⟨.hbm, 71, rfl⟩
abbrev main_call2_v13 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_cst_2 : Ref sig .tc := ⟨.hbm, 77, rfl⟩
abbrev main_cst_3 : Ref sig .tc := ⟨.hbm, 78, rfl⟩
abbrev main_call3_v0 : Ref sig .tc := ⟨.hbm, 79, rfl⟩
abbrev main_call3_v1 : Ref sig .tc := ⟨.hbm, 80, rfl⟩
abbrev main_v30 : Ref sig .tc := ⟨.hbm, 81, rfl⟩
abbrev main_v31_0 : Ref sig .tc := ⟨.hbm, 82, rfl⟩
abbrev main_v31_1 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x256x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S4x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S256x4096 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S4096 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x256x4096 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  shapeCasts_S8x1x64x256x256_S8x64x32x8x32x8 : S8x1x64x256x256.ShapeCasts S8x64x32x8x32x8
  transposes_S8x64x32x8x32x8_S8x32x32x64x8x8_0_2_4_1_3_5 : S8x64x32x8x32x8.Transposes [0, 2, 4, 1, 3, 5] S8x32x32x64x8x8
  shapeCasts_S8x32x32x64x8x8_S8x1024x4096 : S8x32x32x64x8x8.ShapeCasts S8x1024x4096
  bitsLt_bf16_f32 : FTy.bits .bf16 < FTy.bits .f32
  transposes_S256x4096_S4096x256_1_0 : S256x4096.Transposes [1, 0] S4096x256
  transposes_S256x256_S256x256_1_0 : S256x256.Transposes [1, 0] S256x256
  transposes_S4096x256_S256x4096_1_0 : S4096x256.Transposes [1, 0] S256x4096
  bcast_S256_S256x1_0 : S256.BroadcastsInDim S256x1 (![0] : Fin 1 → Fin S256x1.rank)
  bcast_S4_S1x4_1 : S4.BroadcastsInDim S1x4 (![1] : Fin 1 → Fin S1x4.rank)
  bcast_S_S256x1 : S_.BroadcastsInDim S256x1 (![] : Fin 0 → Fin S256x1.rank)
  bcast_S256x1_S256x4_0_1 : S256x1.BroadcastsInDim S256x4 (![0, 1] : Fin 2 → Fin S256x4.rank)
  bcast_S1x4_S256x4_0_1 : S1x4.BroadcastsInDim S256x4 (![0, 1] : Fin 2 → Fin S256x4.rank)
  bcast_S_S256x4 : S_.BroadcastsInDim S256x4 (![] : Fin 0 → Fin S256x4.rank)
  bcast_S4_S4x1_0 : S4.BroadcastsInDim S4x1 (![0] : Fin 1 → Fin S4x1.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S4x256_0_1 : S1x256.BroadcastsInDim S4x256 (![0, 1] : Fin 2 → Fin S4x256.rank)
  bcast_S4x1_S4x256_0_1 : S4x1.BroadcastsInDim S4x256 (![0, 1] : Fin 2 → Fin S4x256.rank)
  bcast_S_S4x256 : S_.BroadcastsInDim S4x256 (![] : Fin 0 → Fin S4x256.rank)
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256_S256_0 : ∀ a, (![0] : Fin 1 → Nat) a + S256.size a ≤ S256.size a
  h_S256 : 0 < S256.numel
  shapeCasts_S256_S1x256 : S256.ShapeCasts S1x256
  broadcasts_S1x256_S256x256 : S1x256.Broadcasts S256x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  packedbf16_S1x256x256_S1x256x256_0_0_0 : (Rect.unit (s := S1x256x256) ![0, 0, 0] S1x256x256.size inb_S1x256x256_S1x256x256_0_0_0).PackedRows (EltTy.packing .bf16)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x4_S256x4_0_0 : ∀ a, (![0, 0] : Fin 2 → Nat) a + S256x4.size a ≤ S256x4.size a
  h_S256x4 : 0 < S256x4.numel
  shapeCasts_S256x4_S256x4 : S256x4.ShapeCasts S256x4
  inb_S1x256x4_S1x256x4_0_0_0 : ∀ a, (![0, 0, 0] : Fin 3 → Nat) a + S1x256x4.size a ≤ S1x256x4.size a
  h_S1x256x4 : 0 < S1x256x4.numel
  shapeCasts_S1x256x4_S256x4 : S1x256x4.ShapeCasts S256x4
  shapeCasts_S256x4_S1x256x4 : S256x4.ShapeCasts S1x256x4
  inb_S1x1024x4_S1x1024x4_0_0_0 : ∀ a, (![0, 0, 0] : Fin 3 → Nat) a + S1x1024x4.size a ≤ S1x1024x4.size a
  h_S1x1024x4 : 0 < S1x1024x4.numel
  shapeCasts_S1x1024x4_S1024x4 : S1x1024x4.ShapeCasts S1024x4
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S4x256_S4x256_0_0 : ∀ a, (![0, 0] : Fin 2 → Nat) a + S4x256.size a ≤ S4x256.size a
  h_S4x256 : 0 < S4x256.numel
  shapeCasts_S4x256_S4x256 : S4x256.ShapeCasts S4x256
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S256x4096 : S1x4096.Broadcasts S256x4096
  shapeCasts_S256x4096_S1x256x4096 : S256x4096.ShapeCasts S1x256x4096
  shapeCasts_S8x1024x4096_S8x32x32x64x8x8 : S8x1024x4096.ShapeCasts S8x32x32x64x8x8
  transposes_S8x32x32x64x8x8_S8x64x32x8x32x8_0_3_1_4_2_5 : S8x32x32x64x8x8.Transposes [0, 3, 1, 4, 2, 5] S8x64x32x8x32x8
  shapeCasts_S8x64x32x8x32x8_S8x1x64x256x256 : S8x64x32x8x32x8.ShapeCasts S8x1x64x256x256
  dot_S256x4096_S4096x256_S256x256_1_0_0_1_n_n_wf : DotDims.WF S256x4096 S4096x256 S256x256 [1] [0] [0] [1] [] []
  dot_S256x256_S256x256_S256x256_1_0_0_1_n_n_wf : DotDims.WF S256x256 S256x256 S256x256 [1] [0] [0] [1] [] []
  dot_S256x256_S256x4_S256x4_1_0_0_1_n_n_wf : DotDims.WF S256x256 S256x4 S256x4 [1] [0] [0] [1] [] []
  dot_S256x1024_S1024x4_S256x4_1_0_0_1_n_n_wf : DotDims.WF S256x1024 S1024x4 S256x4 [1] [0] [0] [1] [] []
  dot_S256x4_S4x256_S256x256_1_0_0_1_n_n_wf : DotDims.WF S256x4 S4x256 S256x256 [1] [0] [0] [1] [] []
  dot_S256x256_S256x4096_S256x4096_1_0_0_1_n_n_wf : DotDims.WF S256x256 S256x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S8x1024x4096.size a
  hwx0_0 : ∀ i : grid0.Coords, EltTy.bits .bf16 = 32 ∨ (Rect.block (s := S8x1024x4096) S1x256x4096.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .bf16 = 32 ∨ (Rect.block (s := S4096x256) S4096x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x256.size a ≤ S1x1024x256.size a
  hwx0_3 : ∀ i : grid0.Coords, EltTy.bits .f32 = 32 ∨ (Rect.block (s := S1x1024x256) S1x256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x4.size a ≤ S256x4.size a
  hwx0_5 : ∀ i : grid0.Coords, EltTy.bits .f32 = 32 ∨ (Rect.block (s := S256x4) S256x4.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x256.size a ≤ S8x1024x256.size a
  hwx0_6 : ∀ i : grid0.Coords, EltTy.bits .bf16 = 32 ∨ (Rect.block (s := S8x1024x256) S1x256x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x4.size a ≤ S8x1024x4.size a
  hwx0_7 : ∀ i : grid0.Coords, EltTy.bits .f32 = 32 ∨ (Rect.block (s := S8x1024x4) S1x256x4.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x4.size a ≤ S8x1024x4.size a
  hwx1_0 : ∀ i : grid1.Coords, EltTy.bits .f32 = 32 ∨ (Rect.block (s := S8x1024x4) S1x1024x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S1024x1024.size a
  hwx1_1 : ∀ i : grid1.Coords, EltTy.bits .bf16 = 32 ∨ (Rect.block (s := S1024x1024) S256x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x256.size a ≤ S8x1024x256.size a
  hwx1_2 : ∀ i : grid1.Coords, EltTy.bits .bf16 = 32 ∨ (Rect.block (s := S8x1024x256) S1x256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4x256.size a ≤ S4x256.size a
  hwx1_4 : ∀ i : grid1.Coords, EltTy.bits .f32 = 32 ∨ (Rect.block (s := S4x256) S4x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x4096.size a ≤ S256x4096.size a
  hwx1_5 : ∀ i : grid1.Coords, EltTy.bits .bf16 = 32 ∨ (Rect.block (s := S256x4096) S256x4096.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S4096.size a ≤ S4096.size a
  hwx1_6 : ∀ i : grid1.Coords, EltTy.bits .f32 = 32 ∨ (Rect.block (s := S4096) S4096.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x256x4096.size a ≤ S8x1024x4096.size a
  hwx1_7 : ∀ i : grid1.Coords, EltTy.bits .f32 = 32 ∨ (Rect.block (s := S8x1024x4096) S1x256x4096.size (cc1_transform_7 i) (hinb1_7 i)).WholeWords (EltTy.packing .f32)

variable [Facts₀]

def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x4_S256x4_1_0_0_1_n_n : DotDims S256x256 S256x4 S256x4 where
  lhsContracting := [1]
  rhsContracting := [0]
  lhsNonContracting := [0]
  rhsNonContracting := [1]
  lhsBatch := []
  rhsBatch := []
  wf := dot_S256x256_S256x4_S256x4_1_0_0_1_n_n_wf
def dot_S256x1024_S1024x4_S256x4_1_0_0_1_n_n : DotDims S256x1024 S1024x4 S256x4 where
  lhsContracting := [1]
  rhsContracting := [0]
  lhsNonContracting := [0]
  rhsNonContracting := [1]
  lhsBatch := []
  rhsBatch := []
  wf := dot_S256x1024_S1024x4_S256x4_1_0_0_1_n_n_wf
def dot_S256x4_S4x256_S256x256_1_0_0_1_n_n : DotDims S256x4 S4x256 S256x256 where
  lhsContracting := [1]
  rhsContracting := [0]
  lhsNonContracting := [0]
  rhsNonContracting := [1]
  lhsBatch := []
  rhsBatch := []
  wf := dot_S256x4_S4x256_S256x256_1_0_0_1_n_n_wf
def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf

abbrev win0_0 : Pipeline.Window sig grid0 :=
  Pipeline.Window.ofSpec (Memref.whole main_v3) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S256x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31_0) S1x256x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v31_1) S1x256x4.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v31_1) S1x1024x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31_0) S1x256x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S4x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S256x4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S4096.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v32) S1x256x4096.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S8x1x64x256x256 : Shape := ⟨5, ![8, 1, 64, 256, 256]⟩
abbrev S256x4096 : Shape := ⟨2, ![256, 4096]⟩
abbrev S256 : Shape := ⟨1, ![256]⟩
abbrev S1x1024x256 : Shape := ⟨3, ![1, 1024, 256]⟩
abbrev S256x256 : Shape := ⟨2, ![256, 256]⟩
abbrev S1024x1024 : Shape := ⟨2, ![1024, 1024]⟩
abbrev S4096x256 : Shape := ⟨2, ![4096, 256]⟩
abbrev S4096 : Shape := ⟨1, ![4096]⟩
abbrev S8x64x32x8x32x8 : Shape := ⟨6, ![8, 64, 32, 8, 32, 8]⟩
abbrev S8x32x32x64x8x8 : Shape := ⟨6, ![8, 32, 32, 64, 8, 8]⟩
abbrev S8x1024x4096 : Shape := ⟨3, ![8, 1024, 4096]⟩
abbrev S8x1024x256 : Shape := ⟨3, ![8, 1024, 256]⟩
abbrev S1x1x256 : Shape := ⟨3, ![1, 1, 256]⟩
abbrev S8x1024x4x64 : Shape := ⟨4, ![8, 1024, 4, 64]⟩
abbrev S8x4x1024x64 : Shape := ⟨4, ![8, 4, 1024, 64]⟩
abbrev S_ : Shape := ⟨0, ![]⟩
abbrev S8x4x1024 : Shape := ⟨3, ![8, 4, 1024]⟩
abbrev S8x4x1024x1 : Shape := ⟨4, ![8, 4, 1024, 1]⟩
abbrev S1x1x4096 : Shape := ⟨3, ![1, 1, 4096]⟩

abbrev nBuf : Space → Nat
  | .hbm => 50
  | .vmem => 0
  | .smem => 0
  | _ => 0

abbrev bufTy : (tb : Table) → Fin (tcTables nBuf tb) → BufTy
  | .hbm, ⟨0, _⟩ => ⟨S8x1x64x256x256, .f32⟩
  | .hbm, ⟨1, _⟩ => ⟨S256x4096, .f32⟩
  | .hbm, ⟨2, _⟩ => ⟨S256, .f32⟩
  | .hbm, ⟨3, _⟩ => ⟨S1x1024x256, .f32⟩
  | .hbm, ⟨4, _⟩ => ⟨S256x256, .f32⟩
  | .hbm, ⟨5, _⟩ => ⟨S1024x1024, .f32⟩
  | .hbm, ⟨6, _⟩ => ⟨S256x256, .f32⟩
  | .hbm, ⟨7, _⟩ => ⟨S4096x256, .f32⟩
  | .hbm, ⟨8, _⟩ => ⟨S4096, .f32⟩
  | .hbm, ⟨9, _⟩ => ⟨S8x64x32x8x32x8, .f32⟩
  | .hbm, ⟨10, _⟩ => ⟨S8x32x32x64x8x8, .f32⟩
  | .hbm, ⟨11, _⟩ => ⟨S8x1024x4096, .f32⟩
  | .hbm, ⟨12, _⟩ => ⟨S8x1024x256, .f32⟩
  | .hbm, ⟨13, _⟩ => ⟨S1x1x256, .f32⟩
  | .hbm, ⟨14, _⟩ => ⟨S8x1024x256, .f32⟩
  | .hbm, ⟨15, _⟩ => ⟨S8x1024x256, .f32⟩
  | .hbm, ⟨16, _⟩ => ⟨S8x1024x256, .f32⟩
  | .hbm, ⟨17, _⟩ => ⟨S8x1024x256, .f32⟩
  | .hbm, ⟨18, _⟩ => ⟨S8x1024x256, .f32⟩
  | .hbm, ⟨19, _⟩ => ⟨S8x1024x4x64, .f32⟩
  | .hbm, ⟨20, _⟩ => ⟨S8x4x1024x64, .f32⟩
  | .hbm, ⟨21, _⟩ => ⟨S_, .f32⟩
  | .hbm, ⟨22, _⟩ => ⟨S8x4x1024, .f32⟩
  | .hbm, ⟨23, _⟩ => ⟨S_, .f32⟩
  | .hbm, ⟨24, _⟩ => ⟨S8x4x1024, .f32⟩
  | .hbm, ⟨25, _⟩ => ⟨S8x4x1024, .f32⟩
  | .hbm, ⟨26, _⟩ => ⟨S8x4x1024, .f32⟩
  | .hbm, ⟨27, _⟩ => ⟨S8x4x1024, .f32⟩
  | .hbm, ⟨28, _⟩ => ⟨S8x4x1024, .f32⟩
  | .hbm, ⟨29, _⟩ => ⟨S_, .f32⟩
  | .hbm, ⟨30, _⟩ => ⟨S8x4x1024, .f32⟩
  | .hbm, ⟨31, _⟩ => ⟨S8x4x1024, .f32⟩
  | .hbm, ⟨32, _⟩ => ⟨S_, .f32⟩
  | .hbm, ⟨33, _⟩ => ⟨S8x4x1024, .f32⟩
  | .hbm, ⟨34, _⟩ => ⟨S8x4x1024, .f32⟩
  | .hbm, ⟨35, _⟩ => ⟨S8x1024x256, .f32⟩
  | .hbm, ⟨36, _⟩ => ⟨S8x1024x4x64, .f32⟩
  | .hbm, ⟨37, _⟩ => ⟨S8x4x1024x64, .f32⟩
  | .hbm, ⟨38, _⟩ => ⟨S8x4x1024x1, .f32⟩
  | .hbm, ⟨39, _⟩ => ⟨S8x4x1024x64, .f32⟩
  | .hbm, ⟨40, _⟩ => ⟨S8x4x1024x64, .f32⟩
  | .hbm, ⟨41, _⟩ => ⟨S8x1024x4x64, .f32⟩
  | .hbm, ⟨42, _⟩ => ⟨S8x1024x256, .f32⟩
  | .hbm, ⟨43, _⟩ => ⟨S8x1024x4096, .f32⟩
  | .hbm, ⟨44, _⟩ => ⟨S1x1x4096, .f32⟩
  | .hbm, ⟨45, _⟩ => ⟨S8x1024x4096, .f32⟩
  | .hbm, ⟨46, _⟩ => ⟨S8x1024x4096, .f32⟩
  | .hbm, ⟨47, _⟩ => ⟨S8x32x32x64x8x8, .f32⟩
  | .hbm, ⟨48, _⟩ => ⟨S8x64x32x8x32x8, .f32⟩
  | .hbm, ⟨49, _⟩ => ⟨S8x1x64x256x256, .f32⟩
  | _, _ => ⟨S8x1x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  shapeCasts_S8x1x64x256x256_S8x64x32x8x32x8 : S8x1x64x256x256.ShapeCasts S8x64x32x8x32x8
  transposes_S8x64x32x8x32x8_S8x32x32x64x8x8_0_2_4_1_3_5 : S8x64x32x8x32x8.Transposes [0, 2, 4, 1, 3, 5] S8x32x32x64x8x8
  shapeCasts_S8x32x32x64x8x8_S8x1024x4096 : S8x32x32x64x8x8.ShapeCasts S8x1024x4096
  bcast_S256_S1x1x256_2 : S256.BroadcastsInDim S1x1x256 (![2] : Fin 1 → Fin S1x1x256.rank)
  bcast_S1x1x256_S8x1024x256_0_1_2 : S1x1x256.BroadcastsInDim S8x1024x256 (![0, 1, 2] : Fin 3 → Fin S8x1024x256.rank)
  bcast_S1x1024x256_S8x1024x256_0_1_2 : S1x1024x256.BroadcastsInDim S8x1024x256 (![0, 1, 2] : Fin 3 → Fin S8x1024x256.rank)
  shapeCasts_S8x1024x256_S8x1024x4x64 : S8x1024x256.ShapeCasts S8x1024x4x64
  transposes_S8x1024x4x64_S8x4x1024x64_0_2_1_3 : S8x1024x4x64.Transposes [0, 2, 1, 3] S8x4x1024x64
  reducesTo_S8x4x1024x64_S8x4x1024_d3 : S8x4x1024x64.ReducesTo [3] S8x4x1024
  h_S_ : 0 < S_.numel
  bcast_S_S8x4x1024 : S_.BroadcastsInDim S8x4x1024 (![] : Fin 0 → Fin S8x4x1024.rank)
  bcast_S8x4x1024_S8x4x1024x1_0_1_2 : S8x4x1024.BroadcastsInDim S8x4x1024x1 (![0, 1, 2] : Fin 3 → Fin S8x4x1024x1.rank)
  bcast_S8x4x1024x1_S8x4x1024x64_0_1_2_3 : S8x4x1024x1.BroadcastsInDim S8x4x1024x64 (![0, 1, 2, 3] : Fin 4 → Fin S8x4x1024x64.rank)
  transposes_S8x4x1024x64_S8x1024x4x64_0_2_1_3 : S8x4x1024x64.Transposes [0, 2, 1, 3] S8x1024x4x64
  shapeCasts_S8x1024x4x64_S8x1024x256 : S8x1024x4x64.ShapeCasts S8x1024x256
  bcast_S4096_S1x1x4096_2 : S4096.BroadcastsInDim S1x1x4096 (![2] : Fin 1 → Fin S1x1x4096.rank)
  bcast_S1x1x4096_S8x1024x4096_0_1_2 : S1x1x4096.BroadcastsInDim S8x1024x4096 (![0, 1, 2] : Fin 3 → Fin S8x1024x4096.rank)
  shapeCasts_S8x1024x4096_S8x32x32x64x8x8 : S8x1024x4096.ShapeCasts S8x32x32x64x8x8
  transposes_S8x32x32x64x8x8_S8x64x32x8x32x8_0_3_1_4_2_5 : S8x32x32x64x8x8.Transposes [0, 3, 1, 4, 2, 5] S8x64x32x8x32x8
  shapeCasts_S8x64x32x8x32x8_S8x1x64x256x256 : S8x64x32x8x32x8.ShapeCasts S8x1x64x256x256
  dot_S8x1024x4096_S256x4096_S8x1024x256_2_1_01_0_n_n_wf : DotDims.WF S8x1024x4096 S256x4096 S8x1024x256 [2] [1] [0, 1] [0] [] []
  dot_S8x1024x256_S256x256_S8x1024x256_2_1_01_0_n_n_wf : DotDims.WF S8x1024x256 S256x256 S8x1024x256 [2] [1] [0, 1] [0] [] []
  dot_S8x4x1024_S1024x1024_S8x4x1024_2_1_01_0_n_n_wf : DotDims.WF S8x4x1024 S1024x1024 S8x4x1024 [2] [1] [0, 1] [0] [] []
  dot_S8x1024x256_S4096x256_S8x1024x4096_2_1_01_0_n_n_wf : DotDims.WF S8x1024x256 S4096x256 S8x1024x4096 [2] [1] [0, 1] [0] [] []

variable [Facts₀]

def dot_S8x1024x4096_S256x4096_S8x1024x256_2_1_01_0_n_n : DotDims S8x1024x4096 S256x4096 S8x1024x256 where
  lhsContracting := [2]
  rhsContracting := [1]
  lhsNonContracting := [0, 1]
  rhsNonContracting := [0]
  lhsBatch := []
  rhsBatch := []
  wf := dot_S8x1024x4096_S256x4096_S8x1024x256_2_1_01_0_n_n_wf
def dot_S8x1024x256_S256x256_S8x1024x256_2_1_01_0_n_n : DotDims S8x1024x256 S256x256 S8x1024x256 where
  lhsContracting := [2]
  rhsContracting := [1]
  lhsNonContracting := [0, 1]
  rhsNonContracting := [0]
  lhsBatch := []
  rhsBatch := []
  wf := dot_S8x1024x256_S256x256_S8x1024x256_2_1_01_0_n_n_wf
def dot_S8x4x1024_S1024x1024_S8x4x1024_2_1_01_0_n_n : DotDims S8x4x1024 S1024x1024 S8x4x1024 where
  lhsContracting := [2]
  rhsContracting := [1]
  lhsNonContracting := [0, 1]
  rhsNonContracting := [0]
  lhsBatch := []
  rhsBatch := []
  wf := dot_S8x4x1024_S1024x1024_S8x4x1024_2_1_01_0_n_n_wf
def dot_S8x1024x256_S4096x256_S8x1024x4096_2_1_01_0_n_n : DotDims S8x1024x256 S4096x256 S8x1024x4096 where
  lhsContracting := [2]
  rhsContracting := [1]
  lhsNonContracting := [0, 1]
  rhsNonContracting := [0]
  lhsBatch := []
  rhsBatch := []
  wf := dot_S8x1024x256_S4096x256_S8x1024x4096_2_1_01_0_n_n_wf

class Facts : Prop extends Facts₀ where

variable [Facts]
-- ==== Proof.Spec.lean ====
/- The mathematics of the two programs, index by index over the extended reals, and the law that joins them.

   A patch row is embedded (a product with the embedding weights, plus a bias, plus a positional row); the embedded
   row is projected to queries, whose 256 columns are pooled to 4 heads by averaging 64 columns each; the pooled
   queries are mixed along the patch axis and squashed by the logistic function into per-head gates; the embedded
   row is projected to values, each value column is scaled by its head's gate, and the result is projected back to
   patch pixels and biased.

   The kernel's program pools with a product against a 0/(1/64) matrix and spreads the gates with a product against
   a 0/1 matrix, and takes every weight transposed; the reference sums 64 columns and divides by 64, and picks the
   gate of column d's head d / 64. -/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- Arrays of rank 1, 2, 3 over the extended reals. -/
abbrev A1 (a : Nat) : Type := (⟨1, ![a]⟩ : Shape).Idx → EReal
abbrev A2 (a b : Nat) : Type := (⟨2, ![a, b]⟩ : Shape).Idx → EReal
abbrev A3 (a b c : Nat) : Type := (⟨3, ![a, b, c]⟩ : Shape).Idx → EReal

/-- A matrix read with its two coordinates exchanged. -/
def tr {a b : Nat} (W : A2 a b) : A2 b a := fun j => W (ix2 (j 1) (j 0))

/-- The pooling matrix: column h averages the 64 query columns of head h. -/
def mavg : A2 256 4 := fun j =>
  if (j 0).val / 64 = (j 1).val then Ideal.ofBits .f32 0x3C800000#32 else Ideal.ofBits .f32 0x00000000#32

/-- The spreading matrix: row h is 1 on the 64 value columns of head h. -/
def rexp : A2 4 256 := fun j =>
  if (j 1).val / 64 = (j 0).val then Ideal.ofBits .f32 0x3F800000#32 else Ideal.ofBits .f32 0x00000000#32

/-! ## The kernel's arrangement -/

/-- The embedded row, the weights given transposed. -/
def embK (P : A3 8 1024 4096) (WeT : A2 4096 256) (be : A1 256) (pos : A3 1 1024 256)
    (b : Fin 8) (n : Fin 1024) (d : Fin 256) : EReal :=
  (∑ p : Fin 4096, P (ix3 b n p) * WeT (ix2 p d)) + be (ix1 d) + pos (ix3 (0 : Fin 1) n d)

/-- The pooled queries, by a product with the pooling matrix. -/
def qK (E : Fin 8 → Fin 1024 → Fin 256 → EReal) (WqT : A2 256 256) (Mavg : A2 256 4)
    (b : Fin 8) (n : Fin 1024) (h : Fin 4) : EReal :=
  ∑ e : Fin 256, (∑ d : Fin 256, E b n d * WqT (ix2 d e)) * Mavg (ix2 e h)

/-- The output patch rows from the pooled queries Q and the embedded rows E as arrays. -/
def outK (Q : A3 8 1024 4) (Wk : A2 1024 1024) (E : A3 8 1024 256) (WvT : A2 256 256) (Rx : A2 4 256)
    (WoT : A2 256 4096) (bo : A1 4096) (b : Fin 8) (m : Fin 1024) (p : Fin 4096) : EReal :=
  (∑ d : Fin 256, ((∑ d' : Fin 256, E (ix3 b m d') * WvT (ix2 d' d))
      * (∑ h : Fin 4, Ideal.logistic (∑ n : Fin 1024, Wk (ix2 m n) * Q (ix3 b n h)) * Rx (ix2 h d))) * WoT (ix2 d p))
    + bo (ix1 p)

/-- The kernel program's output patch rows as one function of its inputs (P the unfolded patches). -/
def kernelOut (P : A3 8 1024 4096) (We : A2 256 4096) (be : A1 256) (pos : A3 1 1024 256) (Wq : A2 256 256)
    (Wk : A2 1024 1024) (Wv : A2 256 256) (Wo : A2 4096 256) (bo : A1 4096) : A3 8 1024 4096 := fun i =>
  outK (fun j => qK (embK P (tr We) be pos) (tr Wq) mavg (j 0) (j 1) (j 2)) Wk
    (fun j => embK P (tr We) be pos (j 0) (j 1) (j 2)) (tr Wv) rexp (tr Wo) bo (i 0) (i 1) (i 2)

/-! ## The reference's arrangement -/

/-- The embedded row. -/
def embR (P : A3 8 1024 4096) (We : A2 256 4096) (be : A1 256) (pos : A3 1 1024 256)
    (b : Fin 8) (n : Fin 1024) (d : Fin 256) : EReal :=
  (∑ p : Fin 4096, P (ix3 b n p) * We (ix2 d p)) + be (ix1 d) + pos (ix3 (0 : Fin 1) n d)

/-- Column j of head h. -/
def headCol (h : Fin 4) (j : Fin 64) : Fin 256 := ⟨h.val * 64 + j.val, by omega⟩

/-- The head of column d. -/
def headOf (d : Fin 256) : Fin 4 := ⟨d.val / 64, by omega⟩

/-- The pooled queries: the 64 columns of a head summed from zero and divided by 64. -/
def qR (E : Fin 8 → Fin 1024 → Fin 256 → EReal) (Wq : A2 256 256) (b : Fin 8) (h : Fin 4) (n : Fin 1024) : EReal :=
  Ideal.div (Ideal.ofBits .f32 0x00000000#32 + ∑ j : Fin 64, ∑ d : Fin 256, E b n d * Wq (ix2 (headCol h j) d))
    (Ideal.ofBits .f32 0x42800000#32)

/-- The gates: one over one plus the exponential of minus the mixed queries. -/
def kR (Q : Fin 8 → Fin 4 → Fin 1024 → EReal) (Wk : A2 1024 1024) (b : Fin 8) (h : Fin 4) (m : Fin 1024) : EReal :=
  Ideal.div (Ideal.ofBits .f32 0x3F800000#32)
    (Ideal.ofBits .f32 0x3F800000#32 + Ideal.exp (-(∑ n : Fin 1024, Q b h n * Wk (ix2 m n))))

/-- The reference program's output patch rows. -/
def outR (P : A3 8 1024 4096) (We : A2 256 4096) (be : A1 256) (pos : A3 1 1024 256) (Wq : A2 256 256)
    (Wk : A2 1024 1024) (Wv : A2 256 256) (Wo : A2 4096 256) (bo : A1 4096)
    (b : Fin 8) (m : Fin 1024) (p : Fin 4096) : EReal :=
  (∑ d : Fin 256, (kR (qR (embR P We be pos) Wq) Wk b (headOf d) m
      * (∑ d' : Fin 256, embR P We be pos b m d' * Wv (ix2 d d'))) * Wo (ix2 p d))
    + bo (ix1 p)

/-- The reference program's output patch rows as an array. -/
def referenceOut (P : A3 8 1024 4096) (We : A2 256 4096) (be : A1 256) (pos : A3 1 1024 256) (Wq : A2 256 256)
    (Wk : A2 1024 1024) (Wv : A2 256 256) (Wo : A2 4096 256) (bo : A1 4096) : A3 8 1024 4096 := fun i =>
  outR P We be pos Wq Wk Wv Wo bo (i 0) (i 1) (i 2)

end Cert.Spec

end
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.Region0.lean ====
/- The first region, read as arrays. Each of the 32 grid points (a batch and a block of 256 patch rows) embeds its
   256 rows: the rows against the embedding weights, plus the bias row, plus the positional rows of the same block;
   it writes that block to the first output, and writes to the second output the same embedded rows taken against
   the query weights and then against the pooling matrix. The blocks of the points tile both output arrays, and
   every input block is a restriction of its array, so each output array is one function of the entry arrays:
   the embedded rows, and the pooled queries of the embedded rows. -/
import proofs.«116111_j1992864825604_1_alg».proof.Proof.Gen.KernelIdeal.Frame
import proofs.«116111_j1992864825604_1_alg».proof.Proof.Spec
import proofs.«116111_j1992864825604_1_alg».proof.Proof.LibDotPlain
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

/-- The embedded block at row r, column d: the patch row against the weight column, plus the bias entry, plus the
    positional entry. The three casts drop or add a unit axis, the bias is one row repeated over the block's rows, and
    the narrowing is the identity on extended reals. -/
theorem embedded_block_apply (x0 : FVec Ideal S1x256x4096 .bf16) (x1 : FVec Ideal S4096x256 .bf16) (x2 : FVec Ideal S256 .f32)
    (x3 : FVec Ideal S1x256x256 .f32) (r d : Fin 256) :
    k0_pay1 x0 x1 x2 x3 (ix2 r d)
      = (∑ p : Fin 4096, x0 (ix3 (0 : Fin 1) r p) * x1 (ix2 p d)) + x2 (ix1 d) + x3 (ix3 (0 : Fin 1) r d) := by
  unfold k0_pay1
  simp only [truncf_apply, addf_apply]
  refine congrArg₂ (· + ·) (congrArg₂ (· + ·) ?_ ?_) ?_
  · refine (Cert.DotPlain.matmul_zero_rows_cols dot_S256x4096_S4096x256_S256x256_1_0_0_1_n_n rfl rfl rfl rfl rfl rfl none _ _ r d).trans ?_
    refine Finset.sum_congr rfl fun p _ => ?_
    rw [shapeCast_1ab_ab_apply, shapeCast_self]
  · exact (broadcastTo_1b_ab_apply _ _ r d).trans (shapeCast_a_1a_apply x2 _ 0 d)
  · exact shapeCast_1ab_ab_apply x3 _ r d

/-- The block stored to the first output is the embedded block with a unit axis in front. -/
theorem stored_emb_apply (x0 : FVec Ideal S1x256x4096 .bf16) (x1 : FVec Ideal S4096x256 .bf16) (x2 : FVec Ideal S256 .f32)
    (x3 : FVec Ideal S1x256x256 .f32) (u : Fin 1) (r d : Fin 256) :
    k0_pay2 (F := Ideal) x0 x1 x2 x3 (ix3 u r d) = k0_pay1 (F := Ideal) x0 x1 x2 x3 (ix2 r d) := by
  unfold k0_pay2
  exact shapeCast_ab_1ab_apply _ _ u r d

/-- The block stored to the second output at row r, head h: the embedded row against the query weights, and that
    row of queries against the pooling matrix's column h. -/
theorem stored_q_apply (x0 : FVec Ideal S1x256x4096 .bf16) (x1 : FVec Ideal S4096x256 .bf16) (x2 : FVec Ideal S256 .f32)
    (x3 : FVec Ideal S1x256x256 .f32) (x4 : FVec Ideal S256x256 .bf16) (x5 : FVec Ideal S256x4 .f32)
    (u : Fin 1) (r : Fin 256) (h : Fin 4) :
    (k0_pay3 (F := Ideal) x0 x1 x2 x3 x4 x5 (ix3 u r h) : EReal)
      = ∑ e : Fin 256, (∑ d : Fin 256, (k0_pay1 (F := Ideal) x0 x1 x2 x3 (ix2 r d) : EReal) * (x4 (ix2 d e) : EReal))
          * (x5 (ix2 e h) : EReal) := by
  unfold k0_pay3
  refine (shapeCast_ab_1ab_apply _ _ u r h).trans ?_
  refine (Cert.DotPlain.matmul_zero_rows_cols dot_S256x256_S256x4_S256x4_1_0_0_1_n_n rfl rfl rfl rfl rfl rfl none _ _ r h).trans ?_
  refine Finset.sum_congr rfl fun e _ => ?_
  simp only [truncf_apply, shapeCast_self]
  refine congrArg (· * _) ?_
  exact Cert.DotPlain.matmul_zero_rows_cols dot_S256x256_S256x256_S256x256_1_0_0_1_n_n rfl rfl rfl rfl rfl rfl none _ _ r e

variable (V : (c : Dev nD) → (b : Ref sig .tc) → Buf (Elt Ideal) ((c : Thread nD τ).loc b))

theorem zero_off1 : (![0] : Fin 1 → Nat) = fun _ => 0 := funext fun a => by fin_cases a <;> rfl
theorem zero_off2 : (![0, 0] : Fin 2 → Nat) = fun _ => 0 := funext fun a => by fin_cases a <;> rfl
theorem zero_off3 : (![0, 0, 0] : Fin 3 → Nat) = fun _ => 0 := funext fun a => by fin_cases a <;> rfl

/-- The printed index maps over the 32 grid points: the patch block and both output blocks sit at the point's
    (batch, row-block) pair, the positional block at its row-block, every other window is its whole array. -/
theorem block_indices : ∀ t : Fin cfg0.N,
      win0_0.index t (0 : Fin 3) = win0_6.index t (0 : Fin 3)
    ∧ win0_0.index t (1 : Fin 3) = win0_6.index t (1 : Fin 3)
    ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = 0
    ∧ win0_3.index t (1 : Fin 3) = win0_6.index t (1 : Fin 3)
    ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) ≤ 7 ∧ win0_6.index t (1 : Fin 3) ≤ 3 ∧ win0_6.index t (2 : Fin 3) = 0
    ∧ win0_7.index t (0 : Fin 3) = win0_6.index t (0 : Fin 3)
    ∧ win0_7.index t (1 : Fin 3) = win0_6.index t (1 : Fin 3)
    ∧ win0_7.index t (2 : Fin 3) = 0 :=
  (by decide +kernel : ∀ t : Fin grid0.N, _)

/-- Every (batch, row-block) pair is some point's. -/
theorem every_block_met : ∀ (q0 : Fin 8) (q1 : Fin 4), ∃ t : Fin cfg0.N,
      win0_6.index t (0 : Fin 3) = q0.val ∧ win0_6.index t (1 : Fin 3) = q1.val :=
  (by decide +kernel : ∀ (q0 : Fin 8) (q1 : Fin 4), ∃ t : Fin grid0.N,
      win0_6.index t (0 : Fin 3) = q0.val ∧ win0_6.index t (1 : Fin 3) = q1.val)

/-- The patch block at a point is the rows of its (batch, row-block) pair: entry (0, r, p) of the block is entry
    (batch, 256 · row-block + r, p) of the patch array. -/
theorem patch_block (c : Dev nD) (t : Fin cfg0.N) (r : Fin 256) (p : Fin 4096) (k : S8x1024x4096.Idx)
    (h0 : (k 0).val = win0_6.index t (0 : Fin 3)) (h1 : (k 1).val = win0_6.index t (1 : Fin 3) * 256 + r.val)
    (h2 : (k 2).val = p.val) :
    (iblk0 V c 0 t : Vec Ideal S1x256x4096 .bf16) (ix3 (0 : Fin 1) r p) = (V c main_v3 : S8x1024x4096.Idx → EReal) k := by
  obtain ⟨e0, e1, e2, -⟩ := block_indices t
  unfold iblk0
  rw [View.read_apply]
  show V c main_v3 _ = V c main_v3 _
  congr 1
  funext a
  apply Fin.ext
  match a with
  | ⟨0, _⟩ => show win0_0.index t (0 : Fin 3) * 1 + 1 * 0 = (k 0).val; omega
  | ⟨1, _⟩ => show win0_0.index t (1 : Fin 3) * 256 + 1 * r.val = (k 1).val; omega
  | ⟨2, _⟩ => show win0_0.index t (2 : Fin 3) * 4096 + 1 * p.val = (k 2).val; omega

/-- The embedding weights' block is the whole array. -/
theorem embW_block (c : Dev nD) (t : Fin cfg0.N) (p : Fin 4096) (d : Fin 256) :
    (iblk0 V c 1 t : Vec Ideal S4096x256 .bf16) (ix2 p d) = (V c main_v5 : S4096x256.Idx → EReal) (ix2 p d) := by
  obtain ⟨-, -, -, e0, e1, -⟩ := block_indices t
  unfold iblk0
  rw [View.read_apply]
  show V c main_v5 _ = V c main_v5 _
  congr 1
  funext a
  apply Fin.ext
  match a with
  | ⟨0, _⟩ => show win0_1.index t (0 : Fin 2) * 4096 + 1 * p.val = p.val; omega
  | ⟨1, _⟩ => show win0_1.index t (1 : Fin 2) * 256 + 1 * d.val = d.val; omega

/-- The bias block is the whole array. -/
theorem bias_block (c : Dev nD) (t : Fin cfg0.N) (d : Fin 256) :
    (iblk0 V c 2 t : Vec Ideal S256 .f32) (ix1 d) = (V c main_arg2 : S256.Idx → EReal) (ix1 d) := by
  obtain ⟨-, -, -, -, -, e0, -⟩ := block_indices t
  unfold iblk0
  rw [View.read_apply]
  show V c main_arg2 _ = V c main_arg2 _
  congr 1
  funext a
  apply Fin.ext
  match a with
  | ⟨0, _⟩ => show win0_2.index t (0 : Fin 1) * 256 + 1 * d.val = d.val; omega

/-- The positional block at a point is the rows of its row-block. -/
theorem pos_block (c : Dev nD) (t : Fin cfg0.N) (r d : Fin 256) (k : S1x1024x256.Idx)
    (h1 : (k 1).val = win0_6.index t (1 : Fin 3) * 256 + r.val) (h2 : (k 2).val = d.val) :
    (iblk0 V c 3 t : Vec Ideal S1x256x256 .f32) (ix3 (0 : Fin 1) r d) = (V c main_arg3 : S1x1024x256.Idx → EReal) k := by
  obtain ⟨-, -, -, -, -, -, e0, e1, e2, -⟩ := block_indices t
  have hk0 : (k 0).val < 1 := (k 0).isLt
  unfold iblk0
  rw [View.read_apply]
  show V c main_arg3 _ = V c main_arg3 _
  congr 1
  funext a
  apply Fin.ext
  match a with
  | ⟨0, _⟩ => show win0_3.index t (0 : Fin 3) * 1 + 1 * 0 = (k 0).val; omega
  | ⟨1, _⟩ => show win0_3.index t (1 : Fin 3) * 256 + 1 * r.val = (k 1).val; omega
  | ⟨2, _⟩ => show win0_3.index t (2 : Fin 3) * 256 + 1 * d.val = (k 2).val; omega

/-- The query weights' block is the whole array. -/
theorem qW_block (c : Dev nD) (t : Fin cfg0.N) (d e : Fin 256) :
    (iblk0 V c 4 t : Vec Ideal S256x256 .bf16) (ix2 d e) = (V c main_v7 : S256x256.Idx → EReal) (ix2 d e) := by
  obtain ⟨-, -, -, -, -, -, -, -, -, e0, e1, -⟩ := block_indices t
  unfold iblk0
  rw [View.read_apply]
  show V c main_v7 _ = V c main_v7 _
  congr 1
  funext a
  apply Fin.ext
  match a with
  | ⟨0, _⟩ => show win0_4.index t (0 : Fin 2) * 256 + 1 * d.val = d.val; omega
  | ⟨1, _⟩ => show win0_4.index t (1 : Fin 2) * 256 + 1 * e.val = e.val; omega

/-- The pooling matrix's block is the whole array. -/
theorem pool_block (c : Dev nD) (t : Fin cfg0.N) (e : Fin 256) (h : Fin 4) :
    (iblk0 V c 5 t : Vec Ideal S256x4 .f32) (ix2 e h) = (V c main_v21 : S256x4.Idx → EReal) (ix2 e h) := by
  obtain ⟨-, -, -, -, -, -, -, -, -, -, -, e0, e1, -⟩ := block_indices t
  unfold iblk0
  rw [View.read_apply]
  show V c main_v21 _ = V c main_v21 _
  congr 1
  funext a
  apply Fin.ext
  match a with
  | ⟨0, _⟩ => show win0_5.index t (0 : Fin 2) * 256 + 1 * e.val = e.val; omega
  | ⟨1, _⟩ => show win0_5.index t (1 : Fin 2) * 4 + 1 * h.val = h.val; omega

/-- What the first output array ends holding: the embedded rows of the entry arrays. -/
abbrev embOf (c : Dev nD) : S8x1024x256.Idx → EReal := fun i =>
  Cert.Spec.embK (V c main_v3) (V c main_v5) (V c main_arg2) (V c main_arg3) (i 0) (i 1) (i 2)

/-- What the second output array ends holding: the pooled queries of those embedded rows. -/
abbrev qOf (c : Dev nD) : S8x1024x4.Idx → EReal := fun i =>
  Cert.Spec.qK (Cert.Spec.embK (V c main_v3) (V c main_v5) (V c main_arg2) (V c main_arg3))
    (V c main_v7) (V c main_v21) (i 0) (i 1) (i 2)

/-- The embedded block a point computes, at row r and column d, is the embedded row of the arrays at the point's
    batch and at row 256 · row-block + r. -/
theorem emb_at_point (c : Dev nD) (t : Fin cfg0.N) (r d : Fin 256) (b : Fin 8) (n : Fin 1024)
    (hb : b.val = win0_6.index t (0 : Fin 3)) (hn : n.val = win0_6.index t (1 : Fin 3) * 256 + r.val) :
    k0_pay1 (F := Ideal) (iblk0 V c 0 t) (iblk0 V c 1 t) (iblk0 V c 2 t) (iblk0 V c 3 t) (ix2 r d)
      = Cert.Spec.embK (V c main_v3) (V c main_v5) (V c main_arg2) (V c main_arg3) b n d := by
  refine (embedded_block_apply (iblk0 V c 0 t) (iblk0 V c 1 t) (iblk0 V c 2 t) (iblk0 V c 3 t) r d).trans ?_
  unfold Cert.Spec.embK
  refine congrArg₂ (· + ·) (congrArg₂ (· + ·) (Finset.sum_congr rfl fun p _ => congrArg₂ (· * ·) ?_ ?_) ?_) ?_
  · exact patch_block V c t r p (ix3 b n p) hb hn rfl
  · exact embW_block V c t p d
  · exact bias_block V c t d
  · exact pos_block V c t r d (ix3 (0 : Fin 1) n d) hn rfl

/-- What a point writes back to the first output is its block of the embedded rows. -/
theorem emb_written (c : Dev nD) (t : Fin cfg0.N) :
    (dat0 (F := Ideal) V c).flushed 6 t = ((cfg0.win 6).blk t).view.read (Elt Ideal) (embOf V c) := by
  show (cfg0.win 6).cut (grid0.coords t) ((dat0 V c).after 6 t) = _
  rw [after0_6]
  unfold out0_6
  rw [View.canon_unit_zero zero_off3]
  simp only [View.ld_unit_zero (S := S1x256x4096) zero_off3, View.ld_unit_zero (S := S4096x256) zero_off2,
    View.ld_unit_zero (S := S256) zero_off1, View.ld_unit_zero (S := S1x256x256) zero_off3]
  obtain ⟨-, -, -, -, -, -, -, -, -, -, -, -, -, l0, l1, z2, -⟩ := block_indices t
  refine funext fun (y : S1x256x256.Idx) => ?_
  obtain ⟨u, r, d, rfl⟩ : ∃ (u : Fin 1) (r d : Fin 256), y = ix3 u r d := ⟨y 0, y 1, y 2, eq_ix3 y⟩
  have hemb : ((cfg0.win 6).blk t).view.emb (ix3 u r d)
      = (ix3 (⟨win0_6.index t (0 : Fin 3), by omega⟩ : Fin 8)
          (⟨win0_6.index t (1 : Fin 3) * 256 + r.val, by have := r.isLt; omega⟩ : Fin 1024) d : S8x1024x256.Idx) := by
    funext a
    apply Fin.ext
    match a with
    | ⟨0, _⟩ => show win0_6.index t (0 : Fin 3) * 1 + 1 * u.val = win0_6.index t (0 : Fin 3); have := u.isLt; omega
    | ⟨1, _⟩ => show win0_6.index t (1 : Fin 3) * 256 + 1 * r.val = win0_6.index t (1 : Fin 3) * 256 + r.val; omega
    | ⟨2, _⟩ => show win0_6.index t (2 : Fin 3) * 256 + 1 * d.val = d.val; omega
  show k0_pay2 (F := Ideal) (iblk0 V c 0 t) (iblk0 V c 1 t) (iblk0 V c 2 t) (iblk0 V c 3 t) (ix3 u r d)
      = embOf V c (((cfg0.win 6).blk t).view.emb (ix3 u r d))
  rw [hemb]
  refine (stored_emb_apply (iblk0 V c 0 t) (iblk0 V c 1 t) (iblk0 V c 2 t) (iblk0 V c 3 t) u r d).trans ?_
  exact emb_at_point V c t r d _ _ rfl rfl

/-- What a point writes back to the second output is its block of the pooled queries: the embedded row inside the
    query product is recomputed from the input blocks, so it is the embedded row of the entry arrays. -/
theorem q_written (c : Dev nD) (t : Fin cfg0.N) :
    (dat0 (F := Ideal) V c).flushed 7 t = ((cfg0.win 7).blk t).view.read (Elt Ideal) (qOf V c) := by
  show (cfg0.win 7).cut (grid0.coords t) ((dat0 V c).after 7 t) = _
  rw [after0_7]
  unfold out0_7
  rw [View.canon_unit_zero zero_off3]
  simp only [View.ld_unit_zero (S := S1x256x4096) zero_off3, View.ld_unit_zero (S := S4096x256) zero_off2,
    View.ld_unit_zero (S := S256) zero_off1, View.ld_unit_zero (S := S1x256x256) zero_off3,
    View.ld_unit_zero (S := S256x256) zero_off2, View.ld_unit_zero (S := S256x4) zero_off2]
  obtain ⟨-, -, -, -, -, -, -, -, -, -, -, -, -, l0, l1, z2, e0, e1, e2⟩ := block_indices t
  refine funext fun (y : S1x256x4.Idx) => ?_
  obtain ⟨u, r, h, rfl⟩ : ∃ (u : Fin 1) (r : Fin 256) (h : Fin 4), y = ix3 u r h := ⟨y 0, y 1, y 2, eq_ix3 y⟩
  have hemb : ((cfg0.win 7).blk t).view.emb (ix3 u r h)
      = (ix3 (⟨win0_6.index t (0 : Fin 3), by omega⟩ : Fin 8)
          (⟨win0_6.index t (1 : Fin 3) * 256 + r.val, by have := r.isLt; omega⟩ : Fin 1024) h : S8x1024x4.Idx) := by
    funext a
    apply Fin.ext
    match a with
    | ⟨0, _⟩ => show win0_7.index t (0 : Fin 3) * 1 + 1 * u.val = win0_6.index t (0 : Fin 3); have := u.isLt; omega
    | ⟨1, _⟩ => show win0_7.index t (1 : Fin 3) * 256 + 1 * r.val = win0_6.index t (1 : Fin 3) * 256 + r.val; omega
    | ⟨2, _⟩ => show win0_7.index t (2 : Fin 3) * 4 + 1 * h.val = h.val; omega
  show k0_pay3 (F := Ideal) (iblk0 V c 0 t) (iblk0 V c 1 t) (iblk0 V c 2 t) (iblk0 V c 3 t) (iblk0 V c 4 t)
      (iblk0 V c 5 t) (ix3 u r h) = qOf V c (((cfg0.win 7).blk t).view.emb (ix3 u r h))
  rw [hemb]
  refine (stored_q_apply (iblk0 V c 0 t) (iblk0 V c 1 t) (iblk0 V c 2 t) (iblk0 V c 3 t) (iblk0 V c 4 t)
    (iblk0 V c 5 t) u r h).trans ?_
  show _ = Cert.Spec.qK (Cert.Spec.embK (V c main_v3) (V c main_v5) (V c main_arg2) (V c main_arg3))
    (V c main_v7) (V c main_v21) _ _ h
  unfold Cert.Spec.qK
  refine Finset.sum_congr rfl fun e _ => congrArg₂ (· * ·)
    (Finset.sum_congr rfl fun d _ => congrArg₂ (· * ·) ?_ ?_) ?_
  · exact emb_at_point V c t r d _ _ rfl rfl
  · exact qW_block V c t d e
  · exact pool_block V c t e h

/-- An index of the first output array is in a point's block iff each coordinate is in the block's range. -/
theorem mem_emb_block (t : Fin cfg0.N) (i : S8x1024x256.Idx) :
    i ∈ ((cfg0.win 6).blk t).view.set ↔ ∀ a : Fin 3, win0_6.index t a * S1x256x256.size a ≤ (i a).val
      ∧ (i a).val < win0_6.index t a * S1x256x256.size a + S1x256x256.size a := by
  show i ∈ ((View.whole main_v31_0).slice (win0_6.rect t)).set ↔ _
  rw [View.set_slice_whole, Rect.mem_set_unit]
  exact Iff.rfl

/-- The same for the second output array. -/
theorem mem_q_block (t : Fin cfg0.N) (i : S8x1024x4.Idx) :
    i ∈ ((cfg0.win 7).blk t).view.set ↔ ∀ a : Fin 3, win0_7.index t a * S1x256x4.size a ≤ (i a).val
      ∧ (i a).val < win0_7.index t a * S1x256x4.size a + S1x256x4.size a := by
  show i ∈ ((View.whole main_v31_1).slice (win0_7.rect t)).set ↔ _
  rw [View.set_slice_whole, Rect.mem_set_unit]
  exact Iff.rfl

/-- The blocks tile the first output array: index (b, n, d) is in the block of the point at batch b, row-block n / 256. -/
theorem emb_blocks_tile (i : S8x1024x256.Idx) :
    ∃ t : Fin cfg0.N, (cfg0.win 6).flush t = true ∧ i ∈ ((cfg0.win 6).blk t).view.set := by
  have hi0 : (i 0).val < 8 := (i 0).isLt
  have hi1 : (i 1).val < 1024 := (i 1).isLt
  have hi2 : (i 2).val < 256 := (i 2).isLt
  obtain ⟨t, q0, q1⟩ := every_block_met ⟨(i 0).val, hi0⟩ ⟨(i 1).val / 256, by omega⟩
  have q0' : win0_6.index t (0 : Fin 3) = (i 0).val := q0
  have q1' : win0_6.index t (1 : Fin 3) = (i 1).val / 256 := q1
  obtain ⟨-, -, -, -, -, -, -, -, -, -, -, -, -, -, -, z2, -⟩ := block_indices t
  refine ⟨t, flush0_6 t, ?_⟩
  rw [mem_emb_block]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 256 ≤ (i 1).val ∧ (i 1).val < win0_6.index t (1 : Fin 3) * 256 + 256; omega
  | ⟨2, _⟩ => show win0_6.index t (2 : Fin 3) * 256 ≤ (i 2).val ∧ (i 2).val < win0_6.index t (2 : Fin 3) * 256 + 256; omega

/-- The blocks tile the second output array the same way. -/
theorem q_blocks_tile (i : S8x1024x4.Idx) :
    ∃ t : Fin cfg0.N, (cfg0.win 7).flush t = true ∧ i ∈ ((cfg0.win 7).blk t).view.set := by
  have hi0 : (i 0).val < 8 := (i 0).isLt
  have hi1 : (i 1).val < 1024 := (i 1).isLt
  have hi2 : (i 2).val < 4 := (i 2).isLt
  obtain ⟨t, q0, q1⟩ := every_block_met ⟨(i 0).val, hi0⟩ ⟨(i 1).val / 256, by omega⟩
  have q0' : win0_6.index t (0 : Fin 3) = (i 0).val := q0
  have q1' : win0_6.index t (1 : Fin 3) = (i 1).val / 256 := q1
  obtain ⟨-, -, -, -, -, -, -, -, -, -, -, -, -, -, -, -, e0, e1, e2⟩ := block_indices t
  refine ⟨t, flush0_7 t, ?_⟩
  rw [mem_q_block]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 256 ≤ (i 1).val ∧ (i 1).val < win0_7.index t (1 : Fin 3) * 256 + 256; omega
  | ⟨2, _⟩ => show win0_7.index t (2 : Fin 3) * 4 ≤ (i 2).val ∧ (i 2).val < win0_7.index t (2 : Fin 3) * 4 + 4; omega

/-- After the first region its first output array holds the embedded rows of the arrays the region was entered with. -/
theorem emb_array (c : Dev nD) :
    (dat0 (F := Ideal) V c).arrAt 6 cfg0.N
      = fun i => Cert.Spec.embK (V c main_v3) (V c main_v5) (V c main_arg2) (V c main_arg3) (i 0) (i 1) (i 2) :=
  (dat0 (F := Ideal) V c).arrAt_eq_of_cover 6 (embOf V c) (fun t _ => emb_written V c t) emb_blocks_tile

/-- After the first region its second output array holds the pooled queries of the arrays the region was entered with. -/
theorem q_array (c : Dev nD) :
    (dat0 (F := Ideal) V c).arrAt 7 cfg0.N
      = fun i => Cert.Spec.qK (Cert.Spec.embK (V c main_v3) (V c main_v5) (V c main_arg2) (V c main_arg3))
          (V c main_v7) (V c main_v21) (i 0) (i 1) (i 2) :=
  (dat0 (F := Ideal) V c).arrAt_eq_of_cover 7 (qOf V c) (fun t _ => q_written V c t) q_blocks_tile

end Cert.KernelIdeal.Region0

end
-- ==== Proof.Region1.lean ====
import proofs.«116111_j1992864825604_1_alg».proof.Proof.Gen.KernelIdeal.Frame
import proofs.«116111_j1992864825604_1_alg».proof.Proof.Spec
import proofs.«116111_j1992864825604_1_alg».proof.Proof.LibDotPlain
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-! ## The body's arithmetic at one entry of the output block -/

/-- The mixing product at (a, b): row a of the mixing weights against column b of the pooled queries. -/
theorem mix_apply (l : FVec Ideal S256x1024 .bf16) (rr : FVec Ideal S1024x4 .bf16) (a : Fin 256) (b : Fin 4) :
    matmul dot_S256x1024_S1024x4_S256x4_1_0_0_1_n_n none l rr (constant S256x4 .f32 0x00000000#32) (ix2 a b)
      = ∑ k : Fin 1024, l (ix2 a k) * rr (ix2 k b) :=
  Cert.DotPlain.matmul_zero_rows_cols dot_S256x1024_S1024x4_S256x4_1_0_0_1_n_n rfl rfl rfl rfl rfl rfl none l rr a b

/-- The value projection at (a, b): row a of the embedded rows against column b of the value weights. -/
theorem val_apply (l : FVec Ideal S256x256 .bf16) (rr : FVec Ideal S256x256 .bf16) (a : Fin 256) (b : Fin 256) :
    matmul dot_S256x256_S256x256_S256x256_1_0_0_1_n_n none l rr (constant S256x256 .f32 0x00000000#32) (ix2 a b)
      = ∑ k : Fin 256, l (ix2 a k) * rr (ix2 k b) :=
  Cert.DotPlain.matmul_zero_rows_cols dot_S256x256_S256x256_S256x256_1_0_0_1_n_n rfl rfl rfl rfl rfl rfl none l rr a b

/-- The gates spread over the value columns at (a, b): row a of the gates against column b of the spreading matrix. -/
theorem spread_apply (l : FVec Ideal S256x4 .bf16) (rr : FVec Ideal S4x256 .bf16) (a : Fin 256) (b : Fin 256) :
    matmul dot_S256x4_S4x256_S256x256_1_0_0_1_n_n none l rr (constant S256x256 .f32 0x00000000#32) (ix2 a b)
      = ∑ k : Fin 4, l (ix2 a k) * rr (ix2 k b) :=
  Cert.DotPlain.matmul_zero_rows_cols dot_S256x4_S4x256_S256x256_1_0_0_1_n_n rfl rfl rfl rfl rfl rfl none l rr a b

/-- The projection back to patch pixels at (a, b): row a of the gated values against column b of the output weights. -/
theorem back_apply (l : FVec Ideal S256x256 .bf16) (rr : FVec Ideal S256x4096 .bf16) (a : Fin 256) (b : Fin 4096) :
    matmul dot_S256x256_S256x4096_S256x4096_1_0_0_1_n_n none l rr (constant S256x4096 .f32 0x00000000#32) (ix2 a b)
      = ∑ k : Fin 256, l (ix2 a k) * rr (ix2 k b) :=
  Cert.DotPlain.matmul_zero_rows_cols dot_S256x256_S256x4096_S256x4096_1_0_0_1_n_n rfl rfl rfl rfl rfl rfl none l rr a b

/-- The body's result at entry (u, r, q) of the output block, from the seven loaded blocks: the embedded row r projected
    to values, each value column scaled by the sum over the four heads of the head's gate (the logistic function of row r
    of the mixing weights against the head's pooled queries) times the spreading matrix's entry, projected to pixel q,
    plus the bias at q. Over the extended reals a change of float format is the identity, a product into the zero
    accumulator is the plain sum, and the leading unit axes and the bias's broadcast over the rows only rename indices. -/
theorem pay_apply (x0 : Vec Ideal S1x1024x4 .f32) (x1 : Vec Ideal S256x1024 .bf16) (x2 : Vec Ideal S1x256x256 .bf16)
    (x3 : Vec Ideal S256x256 .bf16) (x4 : Vec Ideal S4x256 .f32) (x5 : Vec Ideal S256x4096 .bf16) (x6 : Vec Ideal S4096 .f32)
    (u : Fin 1) (r : Fin 256) (q : Fin 4096) :
    k1_pay1 (F := Ideal) x0 x1 x2 x3 x4 x5 x6 (ix3 u r q)
      = (∑ d : Fin 256, ((∑ d' : Fin 256, x2 (ix3 (0 : Fin 1) r d') * x3 (ix2 d' d))
          * (∑ h : Fin 4, Ideal.logistic (∑ n : Fin 1024, x1 (ix2 r n) * x0 (ix3 (0 : Fin 1) n h)) * x4 (ix2 h d))) * x5 (ix2 d q))
        + x6 (ix1 q) := by
  unfold k1_pay1
  refine (shapeCast_ab_1ab_apply _ shapeCasts_S256x4096_S1x256x4096 u r q).trans ?_
  refine (addf_apply _ _ _).trans ?_
  refine congrArg₂ (· + ·) ?_ ?_
  · refine (back_apply _ _ r q).trans ?_
    refine Finset.sum_congr rfl fun d _ => ?_
    refine congrArg₂ (· * ·) ?_ (congrFun (shapeCast_self x5 shapeCasts_S256x4096_S256x4096) (ix2 d q))
    refine (truncf_apply (ψ := .bf16) (φ := .f32) _ bitsLt_bf16_f32 _).trans ?_
    refine (mulf_apply _ _ _).trans ?_
    refine congrArg₂ (· * ·) ?_ ?_
    · refine (val_apply _ _ r d).trans ?_
      refine Finset.sum_congr rfl fun d' _ => ?_
      exact congrArg₂ (· * ·) (shapeCast_1ab_ab_apply x2 shapeCasts_S1x256x256_S256x256 r d')
        (congrFun (shapeCast_self x3 shapeCasts_S256x256_S256x256) (ix2 d' d))
    · refine (spread_apply _ _ r d).trans ?_
      refine Finset.sum_congr rfl fun h _ => ?_
      refine congrArg₂ (· * ·) ?_ ?_
      · refine (truncf_apply (ψ := .bf16) (φ := .f32) _ bitsLt_bf16_f32 _).trans ?_
        show Ideal.logistic _ = _
        refine congrArg Ideal.logistic ?_
        refine (mix_apply _ _ r h).trans ?_
        refine Finset.sum_congr rfl fun n _ => ?_
        refine congrArg₂ (· * ·) (congrFun (shapeCast_self x1 shapeCasts_S256x1024_S256x1024) (ix2 r n)) ?_
        refine (truncf_apply (ψ := .bf16) (φ := .f32) _ bitsLt_bf16_f32 _).trans ?_
        exact shapeCast_1ab_ab_apply x0 shapeCasts_S1x1024x4_S1024x4 n h
      · refine (truncf_apply (ψ := .bf16) (φ := .f32) _ bitsLt_bf16_f32 _).trans ?_
        exact congrFun (shapeCast_self x4 shapeCasts_S4x256_S4x256) (ix2 h d)
  · refine (broadcastTo_1b_ab_apply _ broadcasts_S1x4096_S256x4096 r q).trans ?_
    exact shapeCast_a_1a_apply x6 shapeCasts_S4096_S1x4096 (0 : Fin 1) q

/-! ## The blocks of the eight windows over the grid of 8 batches by 4 row tiles -/

/-- The zero offsets of a whole block, on three, two and one axes. -/
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The output patch rows as one array of the arrays the region is entered with. -/
abbrev outRows (c : Dev nD) : Buf (Elt Ideal) ((c : Thread nD τ).loc main_v32) := fun i =>
  Cert.Spec.outK (V c main_v31_1) (V c main_v12) (V c main_v31_0) (V c main_v9) (V c main_v30)
          (V c main_v11) (V c main_arg8) (i 0) (i 1) (i 2)

/-- The block indices of the eight windows over the grid: the pooled queries follow the output's batch, the mixing
    weights the output's row tile, the embedded rows both; the weights, the spreading matrix and the bias are whole. -/
theorem idx_facts : ∀ t : Fin cfg1.N,
    win1_0.index t (0 : Fin 3) = win1_7.index t (0 : Fin 3) ∧ win1_0.index t (1 : Fin 3) = 0 ∧ win1_0.index t (2 : Fin 3) = 0
    ∧ win1_1.index t (0 : Fin 2) = win1_7.index t (1 : Fin 3) ∧ win1_1.index t (1 : Fin 2) = 0
    ∧ win1_2.index t (0 : Fin 3) = win1_7.index t (0 : Fin 3) ∧ win1_2.index t (1 : Fin 3) = win1_7.index t (1 : Fin 3)
    ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 1) = 0
    ∧ win1_7.index t (0 : Fin 3) ≤ 7 ∧ win1_7.index t (1 : Fin 3) ≤ 3 ∧ win1_7.index t (2 : Fin 3) = 0 :=
  (by decide +kernel : ∀ t : Fin grid1.N, _)

/-- Every (batch, row tile) pair is some point's output block. -/
theorem idx_onto : ∀ (q0 : Fin 8) (q1 : Fin 4), ∃ t : Fin cfg1.N, win1_7.index t = ![q0.val, q1.val, 0] :=
  (by decide +kernel : ∀ (q0 : Fin 8) (q1 : Fin 4), ∃ t : Fin grid1.N, win1_7.index t = ![q0.val, q1.val, 0])

/-- An entry of the pooled-queries block at a point sits in the array at block index times block size plus its own coordinate. -/
theorem blk0_apply (c : Dev nD) (t : Fin cfg1.N) (x : S1x1024x4.Idx) (k : S8x1024x4.Idx)
    (h0 : (k 0).val = win1_0.index t (0 : Fin 3) * 1 + (x 0).val) (h1 : (k 1).val = win1_0.index t (1 : Fin 3) * 1024 + (x 1).val) (h2 : (k 2).val = win1_0.index t (2 : Fin 3) * 4 + (x 2).val) :
    (iblk1 V c 0 t : Vec Ideal S1x1024x4 .f32) x = (V c main_v31_1 : S8x1024x4.Idx → Elt Ideal .f32) k := by
  unfold iblk1
  rw [View.read_apply]
  show V c main_v31_1 _ = V c main_v31_1 _
  refine congrArg _ ?_
  funext a
  apply Fin.ext
  match a with
  | ⟨0, _⟩ => show win1_0.index t (0 : Fin 3) * 1 + 1 * (x 0).val = (k 0).val; omega
  | ⟨1, _⟩ => show win1_0.index t (1 : Fin 3) * 1024 + 1 * (x 1).val = (k 1).val; omega
  | ⟨2, _⟩ => show win1_0.index t (2 : Fin 3) * 4 + 1 * (x 2).val = (k 2).val; omega

/-- The same for the block of mixing weights. -/
theorem blk1_apply (c : Dev nD) (t : Fin cfg1.N) (x : S256x1024.Idx) (k : S1024x1024.Idx)
    (h0 : (k 0).val = win1_1.index t (0 : Fin 2) * 256 + (x 0).val) (h1 : (k 1).val = win1_1.index t (1 : Fin 2) * 1024 + (x 1).val) :
    (iblk1 V c 1 t : Vec Ideal S256x1024 .bf16) x = (V c main_v12 : S1024x1024.Idx → Elt Ideal .bf16) k := by
  unfold iblk1
  rw [View.read_apply]
  show V c main_v12 _ = V c main_v12 _
  refine congrArg _ ?_
  funext a
  apply Fin.ext
  match a with
  | ⟨0, _⟩ => show win1_1.index t (0 : Fin 2) * 256 + 1 * (x 0).val = (k 0).val; omega
  | ⟨1, _⟩ => show win1_1.index t (1 : Fin 2) * 1024 + 1 * (x 1).val = (k 1).val; omega

/-- The same for the block of embedded rows. -/
theorem blk2_apply (c : Dev nD) (t : Fin cfg1.N) (x : S1x256x256.Idx) (k : S8x1024x256.Idx)
    (h0 : (k 0).val = win1_2.index t (0 : Fin 3) * 1 + (x 0).val) (h1 : (k 1).val = win1_2.index t (1 : Fin 3) * 256 + (x 1).val) (h2 : (k 2).val = win1_2.index t (2 : Fin 3) * 256 + (x 2).val) :
    (iblk1 V c 2 t : Vec Ideal S1x256x256 .bf16) x = (V c main_v31_0 : S8x1024x256.Idx → Elt Ideal .bf16) k := by
  unfold iblk1
  rw [View.read_apply]
  show V c main_v31_0 _ = V c main_v31_0 _
  refine congrArg _ ?_
  funext a
  apply Fin.ext
  match a with
  | ⟨0, _⟩ => show win1_2.index t (0 : Fin 3) * 1 + 1 * (x 0).val = (k 0).val; omega
  | ⟨1, _⟩ => show win1_2.index t (1 : Fin 3) * 256 + 1 * (x 1).val = (k 1).val; omega
  | ⟨2, _⟩ => show win1_2.index t (2 : Fin 3) * 256 + 1 * (x 2).val = (k 2).val; omega

/-- The same for the value weights. -/
theorem blk3_apply (c : Dev nD) (t : Fin cfg1.N) (x : S256x256.Idx) (k : S256x256.Idx)
    (h0 : (k 0).val = win1_3.index t (0 : Fin 2) * 256 + (x 0).val) (h1 : (k 1).val = win1_3.index t (1 : Fin 2) * 256 + (x 1).val) :
    (iblk1 V c 3 t : Vec Ideal S256x256 .bf16) x = (V c main_v9 : S256x256.Idx → Elt Ideal .bf16) k := by
  unfold iblk1
  rw [View.read_apply]
  show V c main_v9 _ = V c main_v9 _
  refine congrArg _ ?_
  funext a
  apply Fin.ext
  match a with
  | ⟨0, _⟩ => show win1_3.index t (0 : Fin 2) * 256 + 1 * (x 0).val = (k 0).val; omega
  | ⟨1, _⟩ => show win1_3.index t (1 : Fin 2) * 256 + 1 * (x 1).val = (k 1).val; omega

/-- The same for the spreading matrix. -/
theorem blk4_apply (c : Dev nD) (t : Fin cfg1.N) (x : S4x256.Idx) (k : S4x256.Idx)
    (h0 : (k 0).val = win1_4.index t (0 : Fin 2) * 4 + (x 0).val) (h1 : (k 1).val = win1_4.index t (1 : Fin 2) * 256 + (x 1).val) :
    (iblk1 V c 4 t : Vec Ideal S4x256 .f32) x = (V c main_v30 : S4x256.Idx → Elt Ideal .f32) k := by
  unfold iblk1
  rw [View.read_apply]
  show V c main_v30 _ = V c main_v30 _
  refine congrArg _ ?_
  funext a
  apply Fin.ext
  match a with
  | ⟨0, _⟩ => show win1_4.index t (0 : Fin 2) * 4 + 1 * (x 0).val = (k 0).val; omega
  | ⟨1, _⟩ => show win1_4.index t (1 : Fin 2) * 256 + 1 * (x 1).val = (k 1).val; omega

/-- The same for the output weights. -/
theorem blk5_apply (c : Dev nD) (t : Fin cfg1.N) (x : S256x4096.Idx) (k : S256x4096.Idx)
    (h0 : (k 0).val = win1_5.index t (0 : Fin 2) * 256 + (x 0).val) (h1 : (k 1).val = win1_5.index t (1 : Fin 2) * 4096 + (x 1).val) :
    (iblk1 V c 5 t : Vec Ideal S256x4096 .bf16) x = (V c main_v11 : S256x4096.Idx → Elt Ideal .bf16) k := by
  unfold iblk1
  rw [View.read_apply]
  show V c main_v11 _ = V c main_v11 _
  refine congrArg _ ?_
  funext a
  apply Fin.ext
  match a with
  | ⟨0, _⟩ => show win1_5.index t (0 : Fin 2) * 256 + 1 * (x 0).val = (k 0).val; omega
  | ⟨1, _⟩ => show win1_5.index t (1 : Fin 2) * 4096 + 1 * (x 1).val = (k 1).val; omega

/-- The same for the output bias. -/
theorem blk6_apply (c : Dev nD) (t : Fin cfg1.N) (x : S4096.Idx) (k : S4096.Idx)
    (h0 : (k 0).val = win1_6.index t (0 : Fin 1) * 4096 + (x 0).val) :
    (iblk1 V c 6 t : Vec Ideal S4096 .f32) x = (V c main_arg8 : S4096.Idx → Elt Ideal .f32) k := by
  unfold iblk1
  rw [View.read_apply]
  show V c main_arg8 _ = V c main_arg8 _
  refine congrArg _ ?_
  funext a
  apply Fin.ext
  match a with
  | ⟨0, _⟩ => show win1_6.index t (0 : Fin 1) * 4096 + 1 * (x 0).val = (k 0).val; omega

/-- What a point computes at entry (u, r, q) of its output block is the output patch row function at the array index
    whose coordinates are the block's index times the block's size plus (u, r, q). -/
theorem point_at (c : Dev nD) (t : Fin cfg1.N) (u : Fin 1) (r : Fin 256) (q : Fin 4096) (i : S8x1024x4096.Idx)
    (m0 : (i 0).val = win1_7.index t (0 : Fin 3) * 1 + 1 * u.val) (m1 : (i 1).val = win1_7.index t (1 : Fin 3) * 256 + 1 * r.val)
    (m2 : (i 2).val = win1_7.index t (2 : Fin 3) * 4096 + 1 * q.val) :
    k1_pay1 (F := Ideal) (iblk1 V c 0 t) (iblk1 V c 1 t) (iblk1 V c 2 t) (iblk1 V c 3 t) (iblk1 V c 4 t) (iblk1 V c 5 t) (iblk1 V c 6 t) (ix3 u r q)
      = outRows V c i := by
  obtain ⟨e00, e01, e02, e10, e11, e20, e21, e22, e30, e31, e40, e41, e50, e51, e60, b0, b1, e72⟩ := idx_facts t
  have hu : u.val = 0 := by omega
  refine (pay_apply (iblk1 V c 0 t) (iblk1 V c 1 t) (iblk1 V c 2 t) (iblk1 V c 3 t) (iblk1 V c 4 t) (iblk1 V c 5 t) (iblk1 V c 6 t) u r q).trans ?_
  unfold outRows Cert.Spec.outK
  refine congrArg₂ (· + ·) (Finset.sum_congr rfl fun d _ => ?_) ?_
  · refine congrArg₂ (· * ·) (congrArg₂ (· * ·) (Finset.sum_congr rfl fun d' _ => ?_) (Finset.sum_congr rfl fun h _ => ?_)) ?_
    · refine congrArg₂ (· * ·) ?_ ?_
      · refine blk2_apply V c t _ _ ?_ ?_ ?_
        · show (i 0).val = win1_2.index t (0 : Fin 3) * 1 + 0; omega
        · show (i 1).val = win1_2.index t (1 : Fin 3) * 256 + r.val; omega
        · show d'.val = win1_2.index t (2 : Fin 3) * 256 + d'.val; omega
      · refine blk3_apply V c t _ _ ?_ ?_
        · show d'.val = win1_3.index t (0 : Fin 2) * 256 + d'.val; omega
        · show d.val = win1_3.index t (1 : Fin 2) * 256 + d.val; omega
    · refine congrArg₂ (· * ·) (congrArg Ideal.logistic (Finset.sum_congr rfl fun n _ => ?_)) ?_
      · refine congrArg₂ (· * ·) ?_ ?_
        · refine blk1_apply V c t _ _ ?_ ?_
          · show (i 1).val = win1_1.index t (0 : Fin 2) * 256 + r.val; omega
          · show n.val = win1_1.index t (1 : Fin 2) * 1024 + n.val; omega
        · refine blk0_apply V c t _ _ ?_ ?_ ?_
          · show (i 0).val = win1_0.index t (0 : Fin 3) * 1 + 0; omega
          · show n.val = win1_0.index t (1 : Fin 3) * 1024 + n.val; omega
          · show h.val = win1_0.index t (2 : Fin 3) * 4 + h.val; omega
      · refine blk4_apply V c t _ _ ?_ ?_
        · show h.val = win1_4.index t (0 : Fin 2) * 4 + h.val; omega
        · show d.val = win1_4.index t (1 : Fin 2) * 256 + d.val; omega
    · refine blk5_apply V c t _ _ ?_ ?_
      · show d.val = win1_5.index t (0 : Fin 2) * 256 + d.val; omega
      · show (i 2).val = win1_5.index t (1 : Fin 2) * 4096 + q.val; omega
  · refine blk6_apply V c t _ _ ?_
    show (i 2).val = win1_6.index t (0 : Fin 1) * 4096 + q.val; omega

/-- What a point writes back is its block of the output patch row function. -/
theorem flushed_eq (c : Dev nD) (t : Fin cfg1.N) :
    (dat1 (F := Ideal) V c).flushed 7 t = ((cfg1.win 7).blk t).view.read (Elt Ideal) (outRows V c) := by
  show (cfg1.win 7).cut (grid1.coords t) ((dat1 V c).after 7 t) = _
  rw [after1_7]
  unfold out1_7
  rw [View.canon_unit_zero hz3]
  simp only [View.ld_unit_zero (S := S1x1024x4) hz3, View.ld_unit_zero (S := S256x1024) hz2, View.ld_unit_zero (S := S1x256x256) hz3,
    View.ld_unit_zero (S := S256x256) hz2, View.ld_unit_zero (S := S4x256) hz2, View.ld_unit_zero (S := S256x4096) hz2,
    View.ld_unit_zero (S := S4096) hz1]
  funext y
  obtain ⟨u, r, q, rfl⟩ : ∃ (u : Fin 1) (r : Fin 256) (q : Fin 4096), y = ix3 u r q :=
    ⟨y 0, y 1, y 2, eq_ix3 (n0 := 1) (n1 := 256) (n2 := 4096) y⟩
  exact point_at V c t u r q (((cfg1.win 7).blk t).view.emb (ix3 u r q)) rfl rfl rfl

/-! ## From the blocks to the array -/

/-- An index of the output array is in a point's block iff each coordinate is in the block's range on its axis. -/
theorem mem_blk (t : Fin cfg1.N) (i : S8x1024x4096.Idx) :
    i ∈ ((cfg1.win 7).blk t).view.set ↔ ∀ a : Fin 3, win1_7.index t a * S1x256x4096.size a ≤ (i a).val
      ∧ (i a).val < win1_7.index t a * S1x256x4096.size a + S1x256x4096.size a := by
  show i ∈ ((View.whole main_v32).slice (win1_7.rect t)).set ↔ _
  rw [View.set_slice_whole, Rect.mem_set_unit]
  exact Iff.rfl

/-- Every index of the output array is in some point's block: batch b, row m is written by the point (b, m / 256). -/
theorem cover (i : S8x1024x4096.Idx) :
    ∃ t : Fin cfg1.N, (cfg1.win 7).flush t = true ∧ i ∈ ((cfg1.win 7).blk t).view.set := by
  have hi0 : (i 0).val < 8 := (i 0).isLt
  have hi1 : (i 1).val < 1024 := (i 1).isLt
  have hi2 : (i 2).val < 4096 := (i 2).isLt
  obtain ⟨t, ht⟩ := idx_onto ⟨(i 0).val, hi0⟩ ⟨(i 1).val / 256, by omega⟩
  have q0 : win1_7.index t (0 : Fin 3) = (i 0).val := congrFun ht 0
  have q1 : win1_7.index t (1 : Fin 3) = (i 1).val / 256 := congrFun ht 1
  have q2 : win1_7.index t (2 : Fin 3) = 0 := congrFun ht 2
  refine ⟨t, flush1_7 t, ?_⟩
  rw [mem_blk]
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 256 ≤ (i 1).val ∧ (i 1).val < win1_7.index t (1 : Fin 3) * 256 + 256; omega
  | ⟨2, _⟩ => show win1_7.index t (2 : Fin 3) * 4096 ≤ (i 2).val ∧ (i 2).val < win1_7.index t (2 : Fin 3) * 4096 + 4096; omega

/-- After the second region its output array holds the output patch rows of the arrays the region was entered with. -/
theorem out_array (c : Dev nD) :
    (dat1 (F := Ideal) V c).arrAt 7 cfg1.N
      = fun i => Cert.Spec.outK (V c main_v31_1) (V c main_v12) (V c main_v31_0) (V c main_v9) (V c main_v30)
          (V c main_v11) (V c main_arg8) (i 0) (i 1) (i 2) :=
  (dat1 (F := Ideal) V c).arrAt_eq_of_cover 7 (outRows V c) (fun t _ => flushed_eq V c t) cover

end Cert.KernelIdeal.Region1

end
-- ==== Proof.HostIn.lean ====
import proofs.«116111_j1992864825604_1_alg».proof.Proof.Gen.KernelIdeal.Frame
import proofs.«116111_j1992864825604_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate
set_option maxRecDepth 16384

noncomputable section

namespace Cert.KernelIdeal.HostIn

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-- The image unfolded into patch rows: two re-layouts around one exchange of axes. -/
def patches (x : (⟨S8x1x64x256x256, .f32⟩ : BufTy).Contents (Elt Ideal)) : (⟨S8x1024x4096, .f32⟩ : BufTy).Contents (Elt Ideal) :=
  shapeCast _ (transpose S8x32x32x64x8x8 [0, 2, 4, 1, 3, 5] (shapeCast _ x shapeCasts_S8x1x64x256x256_S8x64x32x8x32x8)
    transposes_S8x64x32x8x32x8_S8x32x32x64x8x8_0_2_4_1_3_5) shapeCasts_S8x32x32x64x8x8_S8x1024x4096

/-! ## What each stretch writes

Every operation writes exactly its result reference; a stretch's written references are listed in order, and a
reference outside the list keeps its contents across the stretch. -/

/-- The references the operations of `hostOps0` write. -/
abbrev hostOps0_W : List (Ref sig .tc) := [main_v0, main_v1, main_v2, main_v3, main_v4, main_v5, main_v6, main_v7, main_v8, main_v9, main_v10, main_v11, main_v12, main_v13, main_v14, main_v15, main_v16, main_c]
theorem hostOps0_writes : (hostOps0 : List (HloOp τ sig (Elt Ideal))).Forall fun op => op.writes ⊆ (hostOps0_W.map (Proc.devRef (τ := τ) .tc)).toFinset := by
  simp only [List.Forall]
  refine ⟨?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The references the operations of `hostOps0_1` write. -/
abbrev hostOps0_1_W : List (Ref sig .tc) := [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v17]
theorem hostOps0_1_writes : (hostOps0_1 : List (HloOp τ sig (Elt Ideal))).Forall fun op => op.writes ⊆ (hostOps0_1_W.map (Proc.devRef (τ := τ) .tc)).toFinset := by
  simp only [List.Forall]
  refine ⟨?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The references the operations of `hostOps0_2` write. -/
abbrev hostOps0_2_W : List (Ref sig .tc) := [main_v18, main_v19, main_v20, main_cst, main_cst_0]
theorem hostOps0_2_writes : (hostOps0_2 : List (HloOp τ sig (Elt Ideal))).Forall fun op => op.writes ⊆ (hostOps0_2_W.map (Proc.devRef (τ := τ) .tc)).toFinset := by
  simp only [List.Forall]
  refine ⟨?_, ?_, ?_, ?_, ?_⟩ <;>
    (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The references the operations of `hostOps0_3` write. -/
abbrev hostOps0_3_W : List (Ref sig .tc) := [main_call1_v0, main_call1_v1, main_v21]
theorem hostOps0_3_writes : (hostOps0_3 : List (HloOp τ sig (Elt Ideal))).Forall fun op => op.writes ⊆ (hostOps0_3_W.map (Proc.devRef (τ := τ) .tc)).toFinset := by
  simp only [List.Forall]
  refine ⟨?_, ?_, ?_⟩ <;>
    (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The references the operations of `hostOps0_4` write. -/
abbrev hostOps0_4_W : List (Ref sig .tc) := [main_v22, main_v23, main_v24, main_v25, main_c_1]
theorem hostOps0_4_writes : (hostOps0_4 : List (HloOp τ sig (Elt Ideal))).Forall fun op => op.writes ⊆ (hostOps0_4_W.map (Proc.devRef (τ := τ) .tc)).toFinset := by
  simp only [List.Forall]
  refine ⟨?_, ?_, ?_, ?_, ?_⟩ <;>
    (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The references the operations of `hostOps0_5` write. -/
abbrev hostOps0_5_W : List (Ref sig .tc) := [main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v26]
theorem hostOps0_5_writes : (hostOps0_5 : List (HloOp τ sig (Elt Ideal))).Forall fun op => op.writes ⊆ (hostOps0_5_W.map (Proc.devRef (τ := τ) .tc)).toFinset := by
  simp only [List.Forall]
  refine ⟨?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The references the operations of `hostOps0_6` write. -/
abbrev hostOps0_6_W : List (Ref sig .tc) := [main_v27, main_v28, main_v29, main_cst_2, main_cst_3]
theorem hostOps0_6_writes : (hostOps0_6 : List (HloOp τ sig (Elt Ideal))).Forall fun op => op.writes ⊆ (hostOps0_6_W.map (Proc.devRef (τ := τ) .tc)).toFinset := by
  simp only [List.Forall]
  refine ⟨?_, ?_, ?_, ?_, ?_⟩ <;>
    (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The references the operations of `hostOps0_7` write. -/
abbrev hostOps0_7_W : List (Ref sig .tc) := [main_call3_v0, main_call3_v1, main_v30]
theorem hostOps0_7_writes : (hostOps0_7 : List (HloOp τ sig (Elt Ideal))).Forall fun op => op.writes ⊆ (hostOps0_7_W.map (Proc.devRef (τ := τ) .tc)).toFinset := by
  simp only [List.Forall]
  refine ⟨?_, ?_, ?_⟩ <;>
    (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-! ## Walking a reference back through the stretches -/

/-- A reference `hostOps0` does not write holds after it what it held before. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- A reference `hostOps0_1` does not write holds after it what it held before. -/
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h

/-- A reference `hostOps0_2` does not write holds after it what it held before. -/
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h

/-- A reference `hostOps0_3` does not write holds after it what it held before. -/
theorem W4_of (c : Dev nD) (r : Ref sig .tc) (h : r ∉ hostOps0_3_W) :
    W4 m ρ c (Proc.devRef .tc r) = W3 m ρ c (Proc.devRef .tc r) :=
  StableHlo.after_of_writes_sub hostOps0_3 _ hostOps0_3_writes h

/-- A reference `hostOps0_4` does not write holds after it what it held before. -/
theorem W5_of (c : Dev nD) (r : Ref sig .tc) (h : r ∉ hostOps0_4_W) :
    W5 m ρ c (Proc.devRef .tc r) = W4 m ρ c (Proc.devRef .tc r) :=
  StableHlo.after_of_writes_sub hostOps0_4 _ hostOps0_4_writes h

/-- A reference `hostOps0_5` does not write holds after it what it held before. -/
theorem W6_of (c : Dev nD) (r : Ref sig .tc) (h : r ∉ hostOps0_5_W) :
    W6 m ρ c (Proc.devRef .tc r) = W5 m ρ c (Proc.devRef .tc r) :=
  StableHlo.after_of_writes_sub hostOps0_5 _ hostOps0_5_writes h

/-- A reference `hostOps0_6` does not write holds after it what it held before. -/
theorem W7_of (c : Dev nD) (r : Ref sig .tc) (h : r ∉ hostOps0_6_W) :
    W7 m ρ c (Proc.devRef .tc r) = W6 m ρ c (Proc.devRef .tc r) :=
  StableHlo.after_of_writes_sub hostOps0_6 _ hostOps0_6_writes h

/-- A reference `hostOps0_7` does not write holds after it what it held before. -/
theorem W8_of (c : Dev nD) (r : Ref sig .tc) (h : r ∉ hostOps0_7_W) :
    W8 m ρ c (Proc.devRef .tc r) = W7 m ρ c (Proc.devRef .tc r) :=
  StableHlo.after_of_writes_sub hostOps0_7 _ hostOps0_7_writes h

/-- A reference none of the seven later stretches writes holds at the first region's entry what the first stretch left. -/
theorem W8_of_W1 (c : Dev nD) (r : Ref sig .tc) (h1 : r ∉ hostOps0_1_W) (h2 : r ∉ hostOps0_2_W) (h3 : r ∉ hostOps0_3_W)
    (h4 : r ∉ hostOps0_4_W) (h5 : r ∉ hostOps0_5_W) (h6 : r ∉ hostOps0_6_W) (h7 : r ∉ hostOps0_7_W) :
    W8 m ρ c (Proc.devRef .tc r) = W1 m ρ c (Proc.devRef .tc r) :=
  (W8_of m ρ c r h7).trans <| (W7_of m ρ c r h6).trans <| (W6_of m ρ c r h5).trans <| (W5_of m ρ c r h4).trans <|
    (W4_of m ρ c r h3).trans <| (W3_of m ρ c r h2).trans (W2_of m ρ c r h1)

/-- A reference no stretch writes holds the launch memory. -/
theorem W8_of_W0 (c : Dev nD) (r : Ref sig .tc) (h0 : r ∉ hostOps0_W) (h1 : r ∉ hostOps0_1_W) (h2 : r ∉ hostOps0_2_W) (h3 : r ∉ hostOps0_3_W)
    (h4 : r ∉ hostOps0_4_W) (h5 : r ∉ hostOps0_5_W) (h6 : r ∉ hostOps0_6_W) (h7 : r ∉ hostOps0_7_W) :
    W8 m ρ c (Proc.devRef .tc r) = m ((c : Thread nD τ).loc r) :=
  (W8_of_W1 m ρ c r h1 h2 h3 h4 h5 h6 h7).trans <| (W1_of m ρ c r h0).trans rfl

/-! ## What the first stretch computes

The change of float format is the identity at every index, so each result is its operand's re-layout. -/

/-- After the first stretch `main_v3` holds the unfolded patches. -/
theorem v3_W1 (c : Dev nD) : W1 m ρ c (Proc.devRef .tc main_v3) = patches (m ((c : Thread nD τ).loc main_arg0)) := by
  show StableHlo.after hostOps0 (W0 m ρ c) (Proc.devRef .tc main_v3) = _
  after_results
  rfl

/-- After the first stretch `main_v5` holds the embedding weights transposed: the exchange of axes read at (a, b) is the operand at (b, a). -/
theorem v5_W1 (c : Dev nD) : W1 m ρ c (Proc.devRef .tc main_v5) = Cert.Spec.tr (m ((c : Thread nD τ).loc main_arg1)) := by
  show StableHlo.after hostOps0 (W0 m ρ c) (Proc.devRef .tc main_v5) = _
  after_results
  funext j
  exact transpose_apply [1, 0] (W0 m ρ c (Proc.devRef .tc main_arg1)) transposes_S256x4096_S4096x256_1_0 j (ix2 (j 1) (j 0)) (fun b => match b with
    | ⟨0, _⟩ => rfl
    | ⟨1, _⟩ => rfl)

/-- After the first stretch `main_v7` holds the query weights transposed: the exchange of axes read at (a, b) is the operand at (b, a). -/
theorem v7_W1 (c : Dev nD) : W1 m ρ c (Proc.devRef .tc main_v7) = Cert.Spec.tr (m ((c : Thread nD τ).loc main_arg4)) := by
  show StableHlo.after hostOps0 (W0 m ρ c) (Proc.devRef .tc main_v7) = _
  after_results
  funext j
  exact transpose_apply [1, 0] (W0 m ρ c (Proc.devRef .tc main_arg4)) transposes_S256x256_S256x256_1_0 j (ix2 (j 1) (j 0)) (fun b => match b with
    | ⟨0, _⟩ => rfl
    | ⟨1, _⟩ => rfl)

/-- After the first stretch `main_v9` holds the value weights transposed: the exchange of axes read at (a, b) is the operand at (b, a). -/
theorem v9_W1 (c : Dev nD) : W1 m ρ c (Proc.devRef .tc main_v9) = Cert.Spec.tr (m ((c : Thread nD τ).loc main_arg6)) := by
  show StableHlo.after hostOps0 (W0 m ρ c) (Proc.devRef .tc main_v9) = _
  after_results
  funext j
  exact transpose_apply [1, 0] (W0 m ρ c (Proc.devRef .tc main_arg6)) transposes_S256x256_S256x256_1_0 j (ix2 (j 1) (j 0)) (fun b => match b with
    | ⟨0, _⟩ => rfl
    | ⟨1, _⟩ => rfl)

/-- After the first stretch `main_v11` holds the output weights transposed: the exchange of axes read at (a, b) is the operand at (b, a). -/
theorem v11_W1 (c : Dev nD) : W1 m ρ c (Proc.devRef .tc main_v11) = Cert.Spec.tr (m ((c : Thread nD τ).loc main_arg7)) := by
  show StableHlo.after hostOps0 (W0 m ρ c) (Proc.devRef .tc main_v11) = _
  after_results
  funext j
  exact transpose_apply [1, 0] (W0 m ρ c (Proc.devRef .tc main_arg7)) transposes_S4096x256_S256x4096_1_0 j (ix2 (j 1) (j 0)) (fun b => match b with
    | ⟨0, _⟩ => rfl
    | ⟨1, _⟩ => rfl)

/-- After the first stretch `main_v12` holds the mixing weights. -/
theorem v12_W1 (c : Dev nD) : W1 m ρ c (Proc.devRef .tc main_v12) = m ((c : Thread nD τ).loc main_arg5) := by
  show StableHlo.after hostOps0 (W0 m ρ c) (Proc.devRef .tc main_v12) = _
  after_results
  rfl

/-- The first region is entered with the unfolded patches (the change of float format is the identity). -/
theorem v3_eq (c : Dev nD) : V8 m ρ c main_v3 = patches (m ((c : Thread nD τ).loc main_arg0)) := by
  exact (W8_of_W1 m ρ c main_v3 (by decide) (by decide) (by decide) (by decide) (by decide) (by decide) (by decide)).trans (v3_W1 m ρ c)

/-- … with the embedding weights transposed. -/
theorem v5_eq (c : Dev nD) : V8 m ρ c main_v5 = Cert.Spec.tr (m ((c : Thread nD τ).loc main_arg1)) := by
  exact (W8_of_W1 m ρ c main_v5 (by decide) (by decide) (by decide) (by decide) (by decide) (by decide) (by decide)).trans (v5_W1 m ρ c)

/-- … with the query weights transposed. -/
theorem v7_eq (c : Dev nD) : V8 m ρ c main_v7 = Cert.Spec.tr (m ((c : Thread nD τ).loc main_arg4)) := by
  exact (W8_of_W1 m ρ c main_v7 (by decide) (by decide) (by decide) (by decide) (by decide) (by decide) (by decide)).trans (v7_W1 m ρ c)

/-- … with the value weights transposed. -/
theorem v9_eq (c : Dev nD) : V8 m ρ c main_v9 = Cert.Spec.tr (m ((c : Thread nD τ).loc main_arg6)) := by
  exact (W8_of_W1 m ρ c main_v9 (by decide) (by decide) (by decide) (by decide) (by decide) (by decide) (by decide)).trans (v9_W1 m ρ c)

/-- … with the output weights transposed. -/
theorem v11_eq (c : Dev nD) : V8 m ρ c main_v11 = Cert.Spec.tr (m ((c : Thread nD τ).loc main_arg7)) := by
  exact (W8_of_W1 m ρ c main_v11 (by decide) (by decide) (by decide) (by decide) (by decide) (by decide) (by decide)).trans (v11_W1 m ρ c)

/-- … with the mixing weights as given. -/
theorem v12_eq (c : Dev nD) : V8 m ρ c main_v12 = m ((c : Thread nD τ).loc main_arg5) := by
  exact (W8_of_W1 m ρ c main_v12 (by decide) (by decide) (by decide) (by decide) (by decide) (by decide) (by decide)).trans (v12_W1 m ρ c)

/-- No host operation writes an argument the regions read. -/
theorem arg2_eq (c : Dev nD) : V8 m ρ c main_arg2 = m ((c : Thread nD τ).loc main_arg2) := by
  exact W8_of_W0 m ρ c main_arg2 (by decide) (by decide) (by decide) (by decide) (by decide) (by decide) (by decide) (by decide)
theorem arg3_eq (c : Dev nD) : V8 m ρ c main_arg3 = m ((c : Thread nD τ).loc main_arg3) := by
  exact W8_of_W0 m ρ c main_arg3 (by decide) (by decide) (by decide) (by decide) (by decide) (by decide) (by decide) (by decide)
theorem arg8_eq (c : Dev nD) : V8 m ρ c main_arg8 = m ((c : Thread nD τ).loc main_arg8) := by
  exact W8_of_W0 m ρ c main_arg8 (by decide) (by decide) (by decide) (by decide) (by decide) (by decide) (by decide) (by decide)

end Cert.KernelIdeal.HostIn

end
-- ==== Proof.HostMask.lean ====
import proofs.«116111_j1992864825604_1_alg».proof.Proof.Gen.KernelIdeal.Frame
import proofs.«116111_j1992864825604_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate
set_option maxRecDepth 16384

noncomputable section

namespace Cert.KernelIdeal.HostMask

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-! ## Words -/

/-- The sign word of a 32-bit word: 0, −1 or 1. -/
def sgnW (x : BitVec 32) : BitVec 32 := if x = 0 then 0 else if x.msb then -1 else 1

/-- jnp's floor division on one pair of words. -/
def floorDivW (x k : BitVec 32) : BitVec 32 :=
  Scalar.select (IntOp.andi (IntOp.cmpi .ne (sgnW x) (sgnW k)) (IntOp.cmpi .ne (IntOp.remsi .host x k) 0#32))
    (IntOp.subi (IntOp.divsi .host x k) 1#32) (IntOp.divsi .host x k)

/-- Below 256 the floor division by 64 is the quotient of the values: the signs agree, so nothing is subtracted. -/
theorem floorDivW_64 : ∀ e : Fin 256, floorDivW (BitVec.ofNat 32 e.val) 64#32 = BitVec.ofNat 32 (e.val / 64) := by
  decide +kernel

/-- Two small words are equal exactly when their values are. -/
theorem cmpi_eq_small (a b : Nat) (ha : a < 2 ^ 32) (hb : b < 2 ^ 32) :
    IntOp.cmpi .eq (BitVec.ofNat 32 a) (BitVec.ofNat 32 b) = 1#1 ↔ a = b := by
  rw [Predicate.cmpi_eq_iff]
  constructor
  · intro h
    have := congrArg BitVec.toNat h
    simp only [BitVec.toNat_ofNat] at this
    omega
  · intro h; rw [h]

/-! ## The floor division as the program prints it, and read at an index -/

/-- jnp's floor division of 32-bit words by a scalar, as the program prints it: the quotient rounded toward zero, one less
    where the signs differ and the remainder is not zero. -/
def floorDiv {s : Shape} (h : S_.BroadcastsInDim s ![]) (x : IVec s 32) (k : IVec S_ 32) : IVec s 32 :=
  select (andi (cmpi .ne (signi x) (broadcastInDim s ![] h (signi k)))
               (cmpi .ne (Host.remsi x (broadcastInDim s ![] h k)) (broadcastInDim s ![] h (constantI S_ 32 0#32))))
         (subi (Host.divsi x (broadcastInDim s ![] h k)) (broadcastInDim s ![] h (constantI S_ 32 1#32)))
         (Host.divsi x (broadcastInDim s ![] h k))

theorem cmpi_at {s : Shape} {w : Nat} (p : CmpIPredicate) (x y : IVec s w) (i : s.Idx) :
    cmpi p x y i = IntOp.cmpi p (x i) (y i) := rfl

/-- A scalar laid over any shape reads the scalar everywhere. -/
theorem bcast0_at {α : Type} {s : Shape} (h : S_.BroadcastsInDim s ![]) (v : S_.Idx → α) (i : s.Idx) :
    broadcastInDim s ![] h v i = v ix0 :=
  (Predicate.bcast_scalar h (by decide) v i).trans (congrArg v (eq_ix0 _))

/-- The printed floor division at an index is the floor division of the words there. -/
theorem floorDiv_apply {s : Shape} (h : S_.BroadcastsInDim s ![]) (x : IVec s 32) (k : IVec S_ 32) (i : s.Idx) :
    floorDiv h x k i = floorDivW (x i) (k ix0) := by
  show Scalar.select (IntOp.andi (IntOp.cmpi .ne (signi x i) (broadcastInDim s ![] h (signi k) i))
      (IntOp.cmpi .ne (IntOp.remsi .host (x i) (broadcastInDim s ![] h k i)) (broadcastInDim s ![] h (constantI S_ 32 0#32) i)))
      (IntOp.subi (IntOp.divsi .host (x i) (broadcastInDim s ![] h k i)) (broadcastInDim s ![] h (constantI S_ 32 1#32) i))
      (IntOp.divsi .host (x i) (broadcastInDim s ![] h k i)) = _
  simp only [bcast0_at]
  rfl

/-- A select on the equality of two small words is the `if` on the equality of their values. -/
theorem select_cmpi_small {α : Type} (a b : Nat) (ha : a < 2 ^ 32) (hb : b < 2 ^ 32) (x y : α) :
    Scalar.select (IntOp.cmpi .eq (BitVec.ofNat 32 a) (BitVec.ofNat 32 b)) x y = if a = b then x else y := by
  unfold Scalar.select
  by_cases hc : a = b
  · rw [if_pos hc]; exact if_pos ((cmpi_eq_small a b ha hb).mpr hc)
  · rw [if_neg hc]; exact if_neg (mt (cmpi_eq_small a b ha hb).mp hc)

/-- A buffer that no operation of a stretch writes holds after it what it held before. -/
local macro "not_written" ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ## The pooling matrix: each stretch of host operations at the buffers of its chain -/

section Stretches
variable (V : Valuation τ sig (Elt Ideal))

theorem a0_v14 : (StableHlo.after hostOps0 V (Proc.devRef .tc main_v14) : (⟨S256x1, .i32⟩ : BufTy).Contents (Elt Ideal))
    = broadcastInDim S256x1 ![0] bcast_S256_S256x1_0 (iotaInDim S256 32 0) := by
  after_results_simp
theorem a0_v16 : (StableHlo.after hostOps0 V (Proc.devRef .tc main_v16) : (⟨S1x4, .i32⟩ : BufTy).Contents (Elt Ideal))
    = broadcastInDim S1x4 ![1] bcast_S4_S1x4_1 (iotaInDim S4 32 0) := by
  after_results_simp
theorem a0_c : (StableHlo.after hostOps0 V (Proc.devRef .tc main_c) : (⟨S_, .i32⟩ : BufTy).Contents (Elt Ideal))
    = constantI S_ 32 64#32 := by
  after_results_simp
theorem a1_v17 : (StableHlo.after hostOps0_1 V (Proc.devRef .tc main_v17) : (⟨S256x1, .i32⟩ : BufTy).Contents (Elt Ideal))
    = floorDiv bcast_S_S256x1 (V (Proc.devRef .tc main_v14)) (V (Proc.devRef .tc main_c)) := by
  after_results_simp
  rfl
theorem a1_v16 : StableHlo.after hostOps0_1 V (Proc.devRef .tc main_v16) = V (Proc.devRef .tc main_v16) := by
  not_written hostOps0_1
theorem a2_v20 : (StableHlo.after hostOps0_2 V (Proc.devRef .tc main_v20) : (⟨S256x4, .i1⟩ : BufTy).Contents (Elt Ideal))
    = cmpi .eq (broadcastInDim S256x4 ![0, 1] bcast_S256x1_S256x4_0_1 (V (Proc.devRef .tc main_v17)))
        (broadcastInDim S256x4 ![0, 1] bcast_S1x4_S256x4_0_1 (V (Proc.devRef .tc main_v16))) := by
  after_results_simp
theorem a2_cst : (StableHlo.after hostOps0_2 V (Proc.devRef .tc main_cst) : (⟨S_, .f32⟩ : BufTy).Contents (Elt Ideal))
    = constant (F := Ideal) S_ .f32 0x3C800000#32 := by
  after_results_simp
theorem a2_cst_0 : (StableHlo.after hostOps0_2 V (Proc.devRef .tc main_cst_0) : (⟨S_, .f32⟩ : BufTy).Contents (Elt Ideal))
    = constant (F := Ideal) S_ .f32 0x00000000#32 := by
  after_results_simp
theorem a3_v21 : (StableHlo.after hostOps0_3 V (Proc.devRef .tc main_v21) : (⟨S256x4, .f32⟩ : BufTy).Contents (Elt Ideal))
    = select (V (Proc.devRef .tc main_v20)) (broadcastInDim S256x4 ![] bcast_S_S256x4 (V (Proc.devRef .tc main_cst)))
        (broadcastInDim S256x4 ![] bcast_S_S256x4 (V (Proc.devRef .tc main_cst_0))) := by
  after_results_simp
  rfl
theorem a4_v21 : StableHlo.after hostOps0_4 V (Proc.devRef .tc main_v21) = V (Proc.devRef .tc main_v21) := by
  not_written hostOps0_4
theorem a5_v21 : StableHlo.after hostOps0_5 V (Proc.devRef .tc main_v21) = V (Proc.devRef .tc main_v21) := by
  not_written hostOps0_5
theorem a6_v21 : StableHlo.after hostOps0_6 V (Proc.devRef .tc main_v21) = V (Proc.devRef .tc main_v21) := by
  not_written hostOps0_6
theorem a7_v21 : StableHlo.after hostOps0_7 V (Proc.devRef .tc main_v21) = V (Proc.devRef .tc main_v21) := by
  not_written hostOps0_7

end Stretches

/-! ## The pooling matrix as one term, read at an index -/

/-- What the host program computes for the pooling matrix: it depends on no input. -/
def maskA : (⟨2, ![256, 4]⟩ : Shape).Idx → EReal :=
  select (cmpi .eq
      (broadcastInDim S256x4 ![0, 1] bcast_S256x1_S256x4_0_1
        (floorDiv bcast_S_S256x1 (broadcastInDim S256x1 ![0] bcast_S256_S256x1_0 (iotaInDim S256 32 0)) (constantI S_ 32 64#32)))
      (broadcastInDim S256x4 ![0, 1] bcast_S1x4_S256x4_0_1 (broadcastInDim S1x4 ![1] bcast_S4_S1x4_1 (iotaInDim S4 32 0))))
    (broadcastInDim S256x4 ![] bcast_S_S256x4 (constant (F := Ideal) S_ .f32 0x3C800000#32))
    (broadcastInDim S256x4 ![] bcast_S_S256x4 (constant (F := Ideal) S_ .f32 0x00000000#32))

theorem v21_term (c : Dev nD) : V8 m ρ c main_v21 = maskA := by
  have e1a : W1 m ρ c (Proc.devRef .tc main_v14) = _ := a0_v14 (W0 m ρ c)
  have e1b : W1 m ρ c (Proc.devRef .tc main_v16) = _ := a0_v16 (W0 m ρ c)
  have e1c : W1 m ρ c (Proc.devRef .tc main_c) = _ := a0_c (W0 m ρ c)
  have e2a : W2 m ρ c (Proc.devRef .tc main_v17) = _ := a1_v17 (W1 m ρ c)
  have e2b : W2 m ρ c (Proc.devRef .tc main_v16) = _ := a1_v16 (W1 m ρ c)
  have e3a : W3 m ρ c (Proc.devRef .tc main_v20) = _ := a2_v20 (W2 m ρ c)
  have e3b : W3 m ρ c (Proc.devRef .tc main_cst) = _ := a2_cst (W2 m ρ c)
  have e3c : W3 m ρ c (Proc.devRef .tc main_cst_0) = _ := a2_cst_0 (W2 m ρ c)
  have e4 : W4 m ρ c (Proc.devRef .tc main_v21) = _ := a3_v21 (W3 m ρ c)
  have e5 : W5 m ρ c (Proc.devRef .tc main_v21) = W4 m ρ c (Proc.devRef .tc main_v21) := a4_v21 (W4 m ρ c)
  have e6 : W6 m ρ c (Proc.devRef .tc main_v21) = W5 m ρ c (Proc.devRef .tc main_v21) := a5_v21 (W5 m ρ c)
  have e7 : W7 m ρ c (Proc.devRef .tc main_v21) = W6 m ρ c (Proc.devRef .tc main_v21) := a6_v21 (W6 m ρ c)
  have e8 : W8 m ρ c (Proc.devRef .tc main_v21) = W7 m ρ c (Proc.devRef .tc main_v21) := a7_v21 (W7 m ρ c)
  show W8 m ρ c (Proc.devRef .tc main_v21) = maskA
  rw [e8, e7, e6, e5, e4, e3a, e3b, e3c, e2a, e2b, e1a, e1b, e1c]
  rfl

/-- At row e, column h: 1/64 where e / 64 = h, else 0. -/
theorem maskA_apply (e : Fin 256) (h : Fin 4) :
    maskA (Predicate.ij e h) = if e.val / 64 = h.val then Ideal.ofBits .f32 0x3C800000#32 else Ideal.ofBits .f32 0x00000000#32 := by
  unfold maskA
  rw [select_apply, cmpi_at, Predicate.bcast_of_col, Predicate.bcast_of_row, Predicate.bcast_row1, Predicate.iota_apply,
    floorDiv_apply, Predicate.bcast_col1, Predicate.iota_apply, bcast0_at, bcast0_at]
  show Scalar.select (IntOp.cmpi .eq (floorDivW (BitVec.ofNat 32 e.val) 64#32) (BitVec.ofNat 32 h.val))
    (Ideal.ofBits .f32 0x3C800000#32) (Ideal.ofBits .f32 0x00000000#32) = _
  rw [floorDivW_64, select_cmpi_small _ _ (by omega) (by omega)]

theorem maskA_eq : maskA = Cert.Spec.mavg := by
  funext j
  obtain ⟨e, h, rfl⟩ : ∃ e h, j = Predicate.ij e h := ⟨j 0, j 1, (Predicate.ij_eta j).symm⟩
  rw [maskA_apply]
  rfl

/-! ## The spreading matrix: each stretch of host operations at the buffers of its chain -/

section StretchesB
variable (V : Valuation τ sig (Elt Ideal))

theorem b4_v23 : (StableHlo.after hostOps0_4 V (Proc.devRef .tc main_v23) : (⟨S4x1, .i32⟩ : BufTy).Contents (Elt Ideal))
    = broadcastInDim S4x1 ![0] bcast_S4_S4x1_0 (iotaInDim S4 32 0) := by
  after_results_simp
theorem b4_v25 : (StableHlo.after hostOps0_4 V (Proc.devRef .tc main_v25) : (⟨S1x256, .i32⟩ : BufTy).Contents (Elt Ideal))
    = broadcastInDim S1x256 ![1] bcast_S256_S1x256_1 (iotaInDim S256 32 0) := by
  after_results_simp
theorem b4_c_1 : (StableHlo.after hostOps0_4 V (Proc.devRef .tc main_c_1) : (⟨S_, .i32⟩ : BufTy).Contents (Elt Ideal))
    = constantI S_ 32 64#32 := by
  after_results_simp
theorem b5_v26 : (StableHlo.after hostOps0_5 V (Proc.devRef .tc main_v26) : (⟨S1x256, .i32⟩ : BufTy).Contents (Elt Ideal))
    = floorDiv bcast_S_S1x256 (V (Proc.devRef .tc main_v25)) (V (Proc.devRef .tc main_c_1)) := by
  after_results_simp
  rfl
theorem b5_v23 : StableHlo.after hostOps0_5 V (Proc.devRef .tc main_v23) = V (Proc.devRef .tc main_v23) := by
  not_written hostOps0_5
theorem b6_v29 : (StableHlo.after hostOps0_6 V (Proc.devRef .tc main_v29) : (⟨S4x256, .i1⟩ : BufTy).Contents (Elt Ideal))
    = cmpi .eq (broadcastInDim S4x256 ![0, 1] bcast_S1x256_S4x256_0_1 (V (Proc.devRef .tc main_v26)))
        (broadcastInDim S4x256 ![0, 1] bcast_S4x1_S4x256_0_1 (V (Proc.devRef .tc main_v23))) := by
  after_results_simp
theorem b6_cst_2 : (StableHlo.after hostOps0_6 V (Proc.devRef .tc main_cst_2) : (⟨S_, .f32⟩ : BufTy).Contents (Elt Ideal))
    = constant (F := Ideal) S_ .f32 0x3F800000#32 := by
  after_results_simp
theorem b6_cst_3 : (StableHlo.after hostOps0_6 V (Proc.devRef .tc main_cst_3) : (⟨S_, .f32⟩ : BufTy).Contents (Elt Ideal))
    = constant (F := Ideal) S_ .f32 0x00000000#32 := by
  after_results_simp
theorem b7_v30 : (StableHlo.after hostOps0_7 V (Proc.devRef .tc main_v30) : (⟨S4x256, .f32⟩ : BufTy).Contents (Elt Ideal))
    = select (V (Proc.devRef .tc main_v29)) (broadcastInDim S4x256 ![] bcast_S_S4x256 (V (Proc.devRef .tc main_cst_2)))
        (broadcastInDim S4x256 ![] bcast_S_S4x256 (V (Proc.devRef .tc main_cst_3))) := by
  after_results_simp
  rfl

end StretchesB

/-! ## The spreading matrix as one term, read at an index -/

/-- What the host program computes for the spreading matrix: it depends on no input. -/
def maskB : (⟨2, ![4, 256]⟩ : Shape).Idx → EReal :=
  select (cmpi .eq
      (broadcastInDim S4x256 ![0, 1] bcast_S1x256_S4x256_0_1
        (floorDiv bcast_S_S1x256 (broadcastInDim S1x256 ![1] bcast_S256_S1x256_1 (iotaInDim S256 32 0)) (constantI S_ 32 64#32)))
      (broadcastInDim S4x256 ![0, 1] bcast_S4x1_S4x256_0_1 (broadcastInDim S4x1 ![0] bcast_S4_S4x1_0 (iotaInDim S4 32 0))))
    (broadcastInDim S4x256 ![] bcast_S_S4x256 (constant (F := Ideal) S_ .f32 0x3F800000#32))
    (broadcastInDim S4x256 ![] bcast_S_S4x256 (constant (F := Ideal) S_ .f32 0x00000000#32))

theorem v30_term (c : Dev nD) : V8 m ρ c main_v30 = maskB := by
  have e5a : W5 m ρ c (Proc.devRef .tc main_v23) = _ := b4_v23 (W4 m ρ c)
  have e5b : W5 m ρ c (Proc.devRef .tc main_v25) = _ := b4_v25 (W4 m ρ c)
  have e5c : W5 m ρ c (Proc.devRef .tc main_c_1) = _ := b4_c_1 (W4 m ρ c)
  have e6a : W6 m ρ c (Proc.devRef .tc main_v26) = _ := b5_v26 (W5 m ρ c)
  have e6b : W6 m ρ c (Proc.devRef .tc main_v23) = W5 m ρ c (Proc.devRef .tc main_v23) := b5_v23 (W5 m ρ c)
  have e7a : W7 m ρ c (Proc.devRef .tc main_v29) = _ := b6_v29 (W6 m ρ c)
  have e7b : W7 m ρ c (Proc.devRef .tc main_cst_2) = _ := b6_cst_2 (W6 m ρ c)
  have e7c : W7 m ρ c (Proc.devRef .tc main_cst_3) = _ := b6_cst_3 (W6 m ρ c)
  have e8 : W8 m ρ c (Proc.devRef .tc main_v30) = _ := b7_v30 (W7 m ρ c)
  show W8 m ρ c (Proc.devRef .tc main_v30) = maskB
  rw [e8, e7a, e7b, e7c, e6a, e6b, e5a, e5b, e5c]
  rfl

/-- At row h, column d: 1 where d / 64 = h, else 0. -/
theorem maskB_apply (h : Fin 4) (d : Fin 256) :
    maskB (Predicate.ij h d) = if d.val / 64 = h.val then Ideal.ofBits .f32 0x3F800000#32 else Ideal.ofBits .f32 0x00000000#32 := by
  unfold maskB
  rw [select_apply, cmpi_at, Predicate.bcast_of_row, Predicate.bcast_of_col, Predicate.bcast_col1, Predicate.iota_apply,
    floorDiv_apply, Predicate.bcast_row1, Predicate.iota_apply, bcast0_at, bcast0_at]
  show Scalar.select (IntOp.cmpi .eq (floorDivW (BitVec.ofNat 32 d.val) 64#32) (BitVec.ofNat 32 h.val))
    (Ideal.ofBits .f32 0x3F800000#32) (Ideal.ofBits .f32 0x00000000#32) = _
  rw [floorDivW_64, select_cmpi_small _ _ (by omega) (by omega)]

theorem maskB_eq : maskB = Cert.Spec.rexp := by
  funext j
  obtain ⟨h, d, rfl⟩ : ∃ h d, j = Predicate.ij h d := ⟨j 0, j 1, (Predicate.ij_eta j).symm⟩
  rw [maskB_apply]
  rfl

/-! ## The two matrices the regions are entered with -/

/-- The first region is entered with the pooling matrix: 1/64 where the row's column index divided by 64 is the head, else 0. -/
theorem v21_eq (c : Dev nD) : V8 m ρ c main_v21 = Cert.Spec.mavg := by
  rw [v21_term, maskA_eq]

/-- The second region is entered with the spreading matrix (no region writes it): 1 where the column's index divided by 64 is the head, else 0. -/
theorem v30_eq (c : Dev nD) : V8 m ρ c main_v30 = Cert.Spec.rexp := by
  rw [v30_term, maskB_eq]

end Cert.KernelIdeal.HostMask

end
-- ==== Proof.KernelValue.lean ====
import proofs.«116111_j1992864825604_1_alg».proof.Proof.Gen.KernelIdeal.Frame
import proofs.«116111_j1992864825604_1_alg».proof.Proof.Spec
import proofs.«116111_j1992864825604_1_alg».proof.Proof.Region0
import proofs.«116111_j1992864825604_1_alg».proof.Proof.Region1
import proofs.«116111_j1992864825604_1_alg».proof.Proof.HostIn
import proofs.«116111_j1992864825604_1_alg».proof.Proof.HostMask
import proofs.«116111_j1992864825604_1_alg».proof.Proof.RunValue
import Idealize.ShloMosaic.Lib.StableHlo.Run
set_option maxRecDepth 16384

noncomputable section

/-! The kernel program's result as one function of its arguments: the unfolded patches and the transposed weights
    enter the first region, whose two output arrays (embedded rows, pooled queries) enter the second with the
    remaining weights; the second region's output array is folded back to the image by the host. -/

namespace Cert.KernelIdeal.KernelValue

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-- Patch rows folded back into the image: two re-layouts around one exchange of axes. -/
def fold (y : (⟨S8x1024x4096, .f32⟩ : BufTy).Contents (Elt Ideal)) : (⟨S8x1x64x256x256, .f32⟩ : BufTy).Contents (Elt Ideal) :=
  shapeCast _ (transpose S8x64x32x8x32x8 [0, 3, 1, 4, 2, 5] (shapeCast _ y shapeCasts_S8x1024x4096_S8x32x32x64x8x8)
    transposes_S8x32x32x64x8x8_S8x64x32x8x32x8_0_3_1_4_2_5) shapeCasts_S8x64x32x8x32x8_S8x1x64x256x256

/-- The result buffer is the fold of the second region's output array. -/
theorem result_eq (c : Dev nD) :
    W11 m ρ c (Proc.devRef .tc main_v35) = fold (W10 m ρ c (Proc.devRef .tc main_v32)) := by
  show StableHlo.after hostOps2 (W10 m ρ c) (Proc.devRef .tc main_v35) = _
  after_results
  rfl

/-- What the second region is entered with: the first region's two output arrays, every other buffer as the
    first region was entered with. -/
theorem entry_q (c : Dev nD) : V9 m ρ c main_v31_1 = (dat0 (V8 m ρ) c).arrAt 7 cfg0.N := W9_arr m ρ c 7
theorem entry_emb (c : Dev nD) : V9 m ρ c main_v31_0 = (dat0 (V8 m ρ) c).arrAt 6 cfg0.N := W9_arr m ρ c 6
theorem entry_v12 (c : Dev nD) : V9 m ρ c main_v12 = V8 m ρ c main_v12 := W9_of_ne m ρ c main_v12 (by decide)
theorem entry_v9 (c : Dev nD) : V9 m ρ c main_v9 = V8 m ρ c main_v9 := W9_of_ne m ρ c main_v9 (by decide)
theorem entry_v30 (c : Dev nD) : V9 m ρ c main_v30 = V8 m ρ c main_v30 := W9_of_ne m ρ c main_v30 (by decide)
theorem entry_v11 (c : Dev nD) : V9 m ρ c main_v11 = V8 m ρ c main_v11 := W9_of_ne m ρ c main_v11 (by decide)
theorem entry_arg8 (c : Dev nD) : V9 m ρ c main_arg8 = V8 m ρ c main_arg8 := W9_of_ne m ρ c main_arg8 (by decide)

/-- The second region is entered with the pooled queries of the program's arguments. -/
theorem q_eq (c : Dev nD) :
    V9 m ρ c main_v31_1 = fun j => Cert.Spec.qK (Cert.Spec.embK (HostIn.patches (m ((c : Thread nD τ).loc main_arg0))) (Cert.Spec.tr (m ((c : Thread nD τ).loc main_arg1))) (m ((c : Thread nD τ).loc main_arg2)) (m ((c : Thread nD τ).loc main_arg3)))
      (Cert.Spec.tr (m ((c : Thread nD τ).loc main_arg4))) Cert.Spec.mavg (j 0) (j 1) (j 2) := by
  refine (entry_q m ρ c).trans ((Region0.q_array (V8 m ρ) c).trans ?_)
  rw [HostIn.v3_eq, HostIn.v5_eq, HostIn.arg2_eq, HostIn.arg3_eq, HostIn.v7_eq, HostMask.v21_eq]

/-- The second region is entered with the embedded rows of the program's arguments. -/
theorem emb_eq (c : Dev nD) :
    V9 m ρ c main_v31_0 = fun j => Cert.Spec.embK (HostIn.patches (m ((c : Thread nD τ).loc main_arg0))) (Cert.Spec.tr (m ((c : Thread nD τ).loc main_arg1))) (m ((c : Thread nD τ).loc main_arg2)) (m ((c : Thread nD τ).loc main_arg3)) (j 0) (j 1) (j 2) := by
  refine (entry_emb m ρ c).trans ((Region0.emb_array (V8 m ρ) c).trans ?_)
  rw [HostIn.v3_eq, HostIn.v5_eq, HostIn.arg2_eq, HostIn.arg3_eq]

/-- The second region's output array is the specification's function of the program's arguments. -/
theorem out_eq (c : Dev nD) :
    W10 m ρ c (Proc.devRef .tc main_v32)
      = Cert.Spec.kernelOut (HostIn.patches (m ((c : Thread nD τ).loc main_arg0))) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) := by
  refine (W10_arr m ρ c 7).trans ((Region1.out_array (V9 m ρ) c).trans ?_)
  rw [q_eq, emb_eq, (entry_v12 m ρ c).trans (HostIn.v12_eq m ρ c), (entry_v9 m ρ c).trans (HostIn.v9_eq m ρ c),
    (entry_v30 m ρ c).trans (HostMask.v30_eq m ρ c), (entry_v11 m ρ c).trans (HostIn.v11_eq m ρ c),
    (entry_arg8 m ρ c).trans (HostIn.arg8_eq m ρ c)]
  rfl

/-- The run with the result named: the fold of the specification's function of the arguments. -/
theorem run : θ_run defs (onTc (τ := τ) (main (F := Ideal))) ⟨m, fun _ => 0, ρ⟩ (fun r => ∀ c : Dev nD,
      r.2.mem ((c.tc : Thread nD τ).loc main_v35)
        = fold (Cert.Spec.kernelOut (HostIn.patches (m ((c : Thread nD τ).loc main_arg0))) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono
    (fun r h c => ⟨(h c).1.trans ((result_eq m ρ c).trans (congrArg fold (out_eq m ρ c))), (h c).2⟩)
    (Cert.KernelIdeal.RunValue.run_value (F := Ideal) m ρ)

end Cert.KernelIdeal.KernelValue

end
-- ==== Proof.RefValue.lean ====
import proofs.«116111_j1992864825604_1_alg».proof.Proof.Gen.ReferenceIdeal.Run
import proofs.«116111_j1992864825604_1_alg».proof.Proof.Gen.ReferenceIdeal.Read
import proofs.«116111_j1992864825604_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx Idealize.SL.Sem
open scoped BigOperators

/-- The embedded row: a product with the embedding weights, plus the bias, plus the positional row. -/
theorem v8_eq (x0 : (⟨S8x1x64x256x256, .f32⟩ : BufTy).Contents (Elt Ideal)) (x1 : (⟨S256x4096, .f32⟩ : BufTy).Contents (Elt Ideal))
    (x2 : (⟨S256, .f32⟩ : BufTy).Contents (Elt Ideal)) (x3 : (⟨S1x1024x256, .f32⟩ : BufTy).Contents (Elt Ideal))
    (b : Fin 8) (n : Fin 1024) (d : Fin 256) :
    val_main_v8 (F := Ideal) x0 x1 x2 x3 (ix3 b n d)
      = Cert.Spec.embR (val_main_v2 (F := Ideal) x0) x1 x2 x3 b n d := by
  rw [val_main_v8_apply, val_main_v6_apply, val_main_v3_apply, val_main_v5_apply, val_main_v4_apply, val_main_v7_apply]
  unfold Cert.Spec.embR
  rw [Ideal.addf_def, Ideal.addf_def]
  have e7 : idx_main_v7 (ix3 b n d) = ix3 (0 : Fin 1) n d :=
    funext fun a => Fin.ext (by match a with | ⟨0, _⟩ => rfl | ⟨1, _⟩ => rfl | ⟨2, _⟩ => rfl)
  have e4 : idx_main_v4 (idx_main_v5 (ix3 b n d)) = ix1 d :=
    funext fun a => Fin.ext (by match a with | ⟨0, _⟩ => rfl)
  rw [e7, e4]
  refine congrArg (· + _) (congrArg (· + _) (Finset.sum_congr rfl fun k _ => ?_))
  have el : lidx_main_v3 (ix3 b n d) k = ix3 b n k :=
    funext fun a => Fin.ext (by match a with | ⟨0, _⟩ => rfl | ⟨1, _⟩ => rfl | ⟨2, _⟩ => rfl)
  have er : ridx_main_v3 (ix3 b n d) k = ix2 d k :=
    funext fun a => Fin.ext (by match a with | ⟨0, _⟩ => rfl | ⟨1, _⟩ => rfl)
  rw [el, er]

/-- The pooled queries: the 64 query columns of a head summed from zero and divided by 64. -/
theorem v14_eq (x0 : (⟨S8x1x64x256x256, .f32⟩ : BufTy).Contents (Elt Ideal)) (x1 : (⟨S256x4096, .f32⟩ : BufTy).Contents (Elt Ideal))
    (x2 : (⟨S256, .f32⟩ : BufTy).Contents (Elt Ideal)) (x3 : (⟨S1x1024x256, .f32⟩ : BufTy).Contents (Elt Ideal))
    (x4 : (⟨S256x256, .f32⟩ : BufTy).Contents (Elt Ideal)) (b : Fin 8) (h : Fin 4) (n : Fin 1024) :
    val_main_v14 (F := Ideal) x0 x1 x2 x3 x4 (ix3 b h n)
      = Cert.Spec.qR (fun b n d => val_main_v8 (F := Ideal) x0 x1 x2 x3 (ix3 b n d)) x4 b h n := by
  rw [val_main_v14_apply, val_main_v12_apply, val_main_v13_apply, val_main_cst_apply, val_main_cst_0_apply]
  unfold Cert.Spec.qR
  rw [Ideal.hostDivf_def, Ideal.ofBits_def, Ideal.ofBits_def]
  refine congrArg (fun t => Ideal.div (_ + t) _) (Finset.sum_congr rfl fun j _ => ?_)
  rw [val_main_v11_apply, val_main_v10_apply, val_main_v9_apply]
  refine Finset.sum_congr rfl fun k _ => ?_
  have hb := b.isLt; have hh := h.isLt; have hn := n.isLt; have hj := j.isLt
  have el : lidx_main_v9 (idx_main_v10 (idx_main_v11 (idx_main_v12 (ix3 b h n) j))) k = ix3 b n k :=
    funext fun a => Fin.ext (by
      match a with
      | ⟨0, _⟩ => show (((b.val * 1024 + n.val) * 4 + h.val) * 64 + j.val) / 262144 = b.val; omega
      | ⟨1, _⟩ => show (((b.val * 1024 + n.val) * 4 + h.val) * 64 + j.val) / 256 % 1024 = n.val; omega
      | ⟨2, _⟩ => rfl)
  have er : ridx_main_v9 (idx_main_v10 (idx_main_v11 (idx_main_v12 (ix3 b h n) j))) k = ix2 (Cert.Spec.headCol h j) k :=
    funext fun a => Fin.ext (by
      match a with
      | ⟨0, _⟩ => show (((b.val * 1024 + n.val) * 4 + h.val) * 64 + j.val) % 256 = h.val * 64 + j.val; omega
      | ⟨1, _⟩ => rfl)
  rw [el, er]

/-- The gates: one over one plus the exponential of minus the pooled queries mixed along the patch axis. -/
theorem v21_eq (x0 : (⟨S8x1x64x256x256, .f32⟩ : BufTy).Contents (Elt Ideal)) (x1 : (⟨S256x4096, .f32⟩ : BufTy).Contents (Elt Ideal))
    (x2 : (⟨S256, .f32⟩ : BufTy).Contents (Elt Ideal)) (x3 : (⟨S1x1024x256, .f32⟩ : BufTy).Contents (Elt Ideal))
    (x4 : (⟨S256x256, .f32⟩ : BufTy).Contents (Elt Ideal)) (x5 : (⟨S1024x1024, .f32⟩ : BufTy).Contents (Elt Ideal))
    (b : Fin 8) (h : Fin 4) (m : Fin 1024) :
    val_main_v21 (F := Ideal) x0 x1 x2 x3 x4 x5 (ix3 b h m)
      = Cert.Spec.kR (fun b h n => val_main_v14 (F := Ideal) x0 x1 x2 x3 x4 (ix3 b h n)) x5 b h m := by
  rw [val_main_v21_apply, val_main_v20_apply, val_main_cst_2_apply, val_main_v19_apply, val_main_v18_apply,
    val_main_cst_1_apply, val_main_v17_apply, val_main_v16_apply, val_main_v15_apply]
  unfold Cert.Spec.kR
  rw [Ideal.hostDivf_def, Ideal.addf_def, Ideal.hostUnary_exp_def, Ideal.hostNegf_def, Ideal.negf_def,
    Ideal.ofBits_def]
  refine congrArg (fun t => Ideal.div _ (_ + Ideal.exp (-t))) (Finset.sum_congr rfl fun k _ => ?_)
  have el : lidx_main_v15 (ix3 b h m) k = ix3 b h k :=
    funext fun a => Fin.ext (by match a with | ⟨0, _⟩ => rfl | ⟨1, _⟩ => rfl | ⟨2, _⟩ => rfl)
  have er : ridx_main_v15 (ix3 b h m) k = ix2 m k :=
    funext fun a => Fin.ext (by match a with | ⟨0, _⟩ => rfl | ⟨1, _⟩ => rfl)
  rw [el, er]

/-- The values: the embedded row's product with the value weights. -/
theorem v22_eq (x0 : (⟨S8x1x64x256x256, .f32⟩ : BufTy).Contents (Elt Ideal)) (x1 : (⟨S256x4096, .f32⟩ : BufTy).Contents (Elt Ideal))
    (x2 : (⟨S256, .f32⟩ : BufTy).Contents (Elt Ideal)) (x3 : (⟨S1x1024x256, .f32⟩ : BufTy).Contents (Elt Ideal))
    (x6 : (⟨S256x256, .f32⟩ : BufTy).Contents (Elt Ideal)) (b : Fin 8) (m : Fin 1024) (d : Fin 256) :
    val_main_v22 (F := Ideal) x0 x1 x2 x3 x6 (ix3 b m d)
      = ∑ d' : Fin 256, val_main_v8 (F := Ideal) x0 x1 x2 x3 (ix3 b m d') * x6 (ix2 d d') := by
  rw [val_main_v22_apply]
  refine Finset.sum_congr rfl fun k _ => ?_
  have el : lidx_main_v22 (ix3 b m d) k = ix3 b m k :=
    funext fun a => Fin.ext (by match a with | ⟨0, _⟩ => rfl | ⟨1, _⟩ => rfl | ⟨2, _⟩ => rfl)
  have er : ridx_main_v22 (ix3 b m d) k = ix2 d k :=
    funext fun a => Fin.ext (by match a with | ⟨0, _⟩ => rfl | ⟨1, _⟩ => rfl)
  rw [el, er]

/-- The gated values: value column d scaled by the gate of its head d / 64. -/
theorem v29_eq (x0 : (⟨S8x1x64x256x256, .f32⟩ : BufTy).Contents (Elt Ideal)) (x1 : (⟨S256x4096, .f32⟩ : BufTy).Contents (Elt Ideal))
    (x2 : (⟨S256, .f32⟩ : BufTy).Contents (Elt Ideal)) (x3 : (⟨S1x1024x256, .f32⟩ : BufTy).Contents (Elt Ideal))
    (x4 : (⟨S256x256, .f32⟩ : BufTy).Contents (Elt Ideal)) (x5 : (⟨S1024x1024, .f32⟩ : BufTy).Contents (Elt Ideal))
    (x6 : (⟨S256x256, .f32⟩ : BufTy).Contents (Elt Ideal)) (b : Fin 8) (m : Fin 1024) (d : Fin 256) :
    val_main_v29 (F := Ideal) x0 x1 x2 x3 x4 x5 x6 (ix3 b m d)
      = val_main_v21 (F := Ideal) x0 x1 x2 x3 x4 x5 (ix3 b (Cert.Spec.headOf d) m)
          * val_main_v22 (F := Ideal) x0 x1 x2 x3 x6 (ix3 b m d) := by
  rw [val_main_v29_apply, val_main_v28_apply, val_main_v27_apply, val_main_v26_apply, val_main_v25_apply,
    val_main_v24_apply, val_main_v23_apply, Ideal.mulf_def]
  have hb := b.isLt; have hm := m.isLt; have hd := d.isLt
  have eg : idx_main_v25 (idx_main_v26 (idx_main_v28 (idx_main_v29 (ix3 b m d)))) = ix3 b (Cert.Spec.headOf d) m :=
    funext fun a => Fin.ext (by
      match a with
      | ⟨0, _⟩ => show ((b.val * 1024 + m.val) * 256 + d.val) / 262144 = b.val; omega
      | ⟨1, _⟩ => show ((b.val * 1024 + m.val) * 256 + d.val) / 64 % 4 = d.val / 64; omega
      | ⟨2, _⟩ => show ((b.val * 1024 + m.val) * 256 + d.val) / 256 % 1024 = m.val; omega)
  have ev : idx_main_v23 (idx_main_v24 (idx_main_v28 (idx_main_v29 (ix3 b m d)))) = ix3 b m d :=
    funext fun a => Fin.ext (by
      match a with
      | ⟨0, _⟩ =>
        show ((((((b.val * 1024 + m.val) * 256 + d.val) / 262144) * 1024
            + ((b.val * 1024 + m.val) * 256 + d.val) / 256 % 1024) * 4
            + ((b.val * 1024 + m.val) * 256 + d.val) / 64 % 4) * 64
            + ((b.val * 1024 + m.val) * 256 + d.val) % 64) / 262144 = b.val
        omega
      | ⟨1, _⟩ =>
        show ((((((b.val * 1024 + m.val) * 256 + d.val) / 262144) * 1024
            + ((b.val * 1024 + m.val) * 256 + d.val) / 256 % 1024) * 4
            + ((b.val * 1024 + m.val) * 256 + d.val) / 64 % 4) * 64
            + ((b.val * 1024 + m.val) * 256 + d.val) % 64) / 256 % 1024 = m.val
        omega
      | ⟨2, _⟩ =>
        show ((((((b.val * 1024 + m.val) * 256 + d.val) / 262144) * 1024
            + ((b.val * 1024 + m.val) * 256 + d.val) / 256 % 1024) * 4
            + ((b.val * 1024 + m.val) * 256 + d.val) / 64 % 4) * 64
            + ((b.val * 1024 + m.val) * 256 + d.val) % 64) % 256 = d.val
        omega)
  rw [eg, ev]

/-- The reference's output patch rows (before the fold back to the image), index by index, are the specification's
    function of the unfolded patches and the weights. -/
theorem v33_eq (x0 : (⟨S8x1x64x256x256, .f32⟩ : BufTy).Contents (Elt Ideal)) (x1 : (⟨S256x4096, .f32⟩ : BufTy).Contents (Elt Ideal))
    (x2 : (⟨S256, .f32⟩ : BufTy).Contents (Elt Ideal)) (x3 : (⟨S1x1024x256, .f32⟩ : BufTy).Contents (Elt Ideal))
    (x4 : (⟨S256x256, .f32⟩ : BufTy).Contents (Elt Ideal)) (x5 : (⟨S1024x1024, .f32⟩ : BufTy).Contents (Elt Ideal))
    (x6 : (⟨S256x256, .f32⟩ : BufTy).Contents (Elt Ideal)) (x7 : (⟨S4096x256, .f32⟩ : BufTy).Contents (Elt Ideal))
    (x8 : (⟨S4096, .f32⟩ : BufTy).Contents (Elt Ideal)) :
    val_main_v33 (F := Ideal) x0 x1 x2 x3 x4 x5 x6 x7 x8
      = Cert.Spec.referenceOut (val_main_v2 (F := Ideal) x0) x1 x2 x3 x4 x5 x6 x7 x8 := by
  funext i
  obtain ⟨b, m, p, rfl⟩ : ∃ b m p, i = ix3 b m p := ⟨i 0, i 1, i 2, eq_ix3 i⟩
  -- the embedded rows and the pooled queries as functions of their coordinates
  have hE : (fun b n d => val_main_v8 (F := Ideal) x0 x1 x2 x3 (ix3 b n d))
      = Cert.Spec.embR (val_main_v2 (F := Ideal) x0) x1 x2 x3 :=
    funext fun b => funext fun n => funext fun d => v8_eq x0 x1 x2 x3 b n d
  have hQ : (fun b h n => val_main_v14 (F := Ideal) x0 x1 x2 x3 x4 (ix3 b h n))
      = Cert.Spec.qR (Cert.Spec.embR (val_main_v2 (F := Ideal) x0) x1 x2 x3) x4 :=
    funext fun b => funext fun h => funext fun n => (v14_eq x0 x1 x2 x3 x4 b h n).trans (by rw [hE])
  show val_main_v33 (F := Ideal) x0 x1 x2 x3 x4 x5 x6 x7 x8 (ix3 b m p)
      = Cert.Spec.outR (val_main_v2 (F := Ideal) x0) x1 x2 x3 x4 x5 x6 x7 x8 b m p
  rw [val_main_v33_apply, val_main_v30_apply, val_main_v32_apply, val_main_v31_apply, Ideal.addf_def]
  unfold Cert.Spec.outR
  have e8 : idx_main_v31 (idx_main_v32 (ix3 b m p)) = ix1 p :=
    funext fun a => Fin.ext (by match a with | ⟨0, _⟩ => rfl)
  rw [e8]
  refine congrArg (· + _) (Finset.sum_congr rfl fun d _ => ?_)
  have el : lidx_main_v30 (ix3 b m p) d = ix3 b m d :=
    funext fun a => Fin.ext (by match a with | ⟨0, _⟩ => rfl | ⟨1, _⟩ => rfl | ⟨2, _⟩ => rfl)
  have er : ridx_main_v30 (ix3 b m p) d = ix2 p d :=
    funext fun a => Fin.ext (by match a with | ⟨0, _⟩ => rfl | ⟨1, _⟩ => rfl)
  rw [el, er, v29_eq, v21_eq, v22_eq, hQ]
  refine congrArg (fun t => _ * t * _) (Finset.sum_congr rfl fun d' _ => ?_)
  rw [v8_eq]

end Cert.ReferenceIdeal.RefValue

end
-- ==== Proof.Algebra.lean ====
/- The law that joins the two arrangements: a product with the 0/(1/64) pooling matrix is the sum of a head's 64
   columns divided by 64; a product with the 0/1 spreading matrix picks the gate of a column's head; the logistic
   function is one over one plus the exponential of the negated argument; products commute and a matrix read
   transposed is the matrix. -/
import proofs.«116111_j1992864825604_1_alg».proof.Proof.Spec

noncomputable section

namespace Cert.Spec

open Idealize.ShloMosaic Idealize.ShloMosaic.ValueIdx
open scoped BigOperators

/-! ## The constants the two programs spell -/

/-- The pattern of `1.0` denotes 1. -/
theorem ofBits_one : Ideal.ofBits .f32 0x3F800000#32 = 1 := by
  simp [Ideal.ofBits, Ideal.ieee, -EReal.coe_mul]; norm_num

/-- The pattern of `64.0` denotes the real 64. -/
theorem ofBits_64 : Ideal.ofBits .f32 0x42800000#32 = ((64 : ℝ) : EReal) := by
  simp [Ideal.ofBits, Ideal.ieee, -EReal.coe_mul]; norm_num

/-- The pattern of `0.015625` denotes the real 1/64. -/
theorem ofBits_inv64 : Ideal.ofBits .f32 0x3C800000#32 = ((1 / 64 : ℝ) : EReal) := by
  simp [Ideal.ofBits, Ideal.ieee, -EReal.coe_mul]; norm_num

/-- The embedded row from the transposed weights read transposed is the embedded row. -/
theorem embK_eq (P : A3 8 1024 4096) (We : A2 256 4096) (be : A1 256) (pos : A3 1 1024 256) :
    embK P (tr We) be pos = embR P We be pos := by
  funext b n d
  rfl

/-! ## Sums over the 256 columns, head by head -/

/-- A finite sum of products with one nonnegative finite factor is the product of the sum with that factor. -/
theorem sum_mul_const {ι : Type} (s : Finset ι) (f : ι → EReal) {c : EReal} (h0 : 0 ≤ c) (ht : c ≠ ⊤) :
    ∑ i ∈ s, f i * c = (∑ i ∈ s, f i) * c := by
  classical
  induction s using Finset.induction_on with
  | empty => simp
  | insert a s ha ih =>
    rw [Finset.sum_insert ha, Finset.sum_insert ha, ih, EReal.right_distrib_of_nonneg_of_ne_top h0 ht]

/-- Column j of head h lies in head h. -/
theorem headOf_headCol (h : Fin 4) (j : Fin 64) : headOf (headCol h j) = h := by
  apply Fin.ext
  simp only [headOf, headCol]
  omega

/-- The 256 columns are the 64 columns of each of the 4 heads. -/
def colEquiv : Fin 4 × Fin 64 ≃ Fin 256 where
  toFun x := headCol x.1 x.2
  invFun d := (headOf d, ⟨d.val % 64, Nat.mod_lt _ (by norm_num)⟩)
  left_inv x := by
    rcases x with ⟨h, j⟩
    apply Prod.ext
    · exact headOf_headCol h j
    · apply Fin.ext
      simp only [headCol]
      omega
  right_inv d := by
    apply Fin.ext
    simp only [headCol, headOf]
    omega

/-- A sum over the 256 columns is the sum over the heads of the sums over each head's 64 columns. -/
theorem sum_cols (G : Fin 256 → EReal) : ∑ e : Fin 256, G e = ∑ h : Fin 4, ∑ j : Fin 64, G (headCol h j) := by
  rw [← Fintype.sum_prod_type' (fun h j => G (headCol h j))]
  exact (Equiv.sum_comp colEquiv G).symm

/-- The product with the spreading matrix picks the entry of the column's head. -/
theorem spread (g : Fin 4 → EReal) (d : Fin 256) : ∑ h : Fin 4, g h * rexp (ix2 h d) = g (headOf d) := by
  rw [Finset.sum_eq_single (headOf d)]
  · have : rexp (ix2 (headOf d) d) = 1 := by
      unfold rexp
      rw [if_pos (by rfl)]
      exact ofBits_one
    rw [this, mul_one]
  · intro h _ hne
    have : rexp (ix2 h d) = 0 := by
      unfold rexp
      rw [if_neg, Ideal.ofBits_zero_f32]
      intro hh
      apply hne
      apply Fin.ext
      exact hh.symm
    rw [this, mul_zero]
  · intro hn
    exact absurd (Finset.mem_univ _) hn

/-! ## The pooling product -/

/-- The pooling matrix is 1/64 at a column of its own head. -/
theorem mavg_on (h : Fin 4) (j : Fin 64) : mavg (ix2 (headCol h j) h) = ((1 / 64 : ℝ) : EReal) := by
  unfold mavg
  rw [if_pos, ofBits_inv64]
  show (h.val * 64 + j.val) / 64 = h.val
  omega

/-- The pooling matrix is 0 at a column of another head. -/
theorem mavg_off (h h' : Fin 4) (j : Fin 64) (hne : h' ≠ h) : mavg (ix2 (headCol h' j) h) = 0 := by
  unfold mavg
  rw [if_neg, Ideal.ofBits_zero_f32]
  show ¬ (h'.val * 64 + j.val) / 64 = h.val
  intro hh
  apply hne
  apply Fin.ext
  omega

/-- The product with the pooling matrix is the sum of the head's 64 columns, from zero, divided by 64. -/
theorem pool (f : Fin 256 → EReal) (h : Fin 4) :
    ∑ e : Fin 256, f e * mavg (ix2 e h)
      = Ideal.div (Ideal.ofBits .f32 0x00000000#32 + ∑ j : Fin 64, f (headCol h j)) (Ideal.ofBits .f32 0x42800000#32) := by
  rw [sum_cols, Finset.sum_eq_single h]
  · rw [Ideal.ofBits_zero_f32, zero_add, ofBits_64, Ideal.div_coe (by norm_num : (64 : ℝ) ≠ 0),
      ← sum_mul_const _ _ (by positivity) (EReal.coe_ne_top _)]
    exact Finset.sum_congr rfl (fun j _ => by rw [mavg_on])
  · intro h' _ hne
    exact Finset.sum_eq_zero (fun j _ => by rw [mavg_off h h' j hne, mul_zero])
  · intro hn
    exact absurd (Finset.mem_univ _) hn

/-! ## The two arrangements joined -/

/-- The kernel's pooled queries are the reference's. -/
theorem qK_eq (E : Fin 8 → Fin 1024 → Fin 256 → EReal) (Wq : A2 256 256) (b : Fin 8) (n : Fin 1024) (h : Fin 4) :
    qK E (tr Wq) mavg b n h = qR E Wq b h n :=
  pool (fun e => ∑ d : Fin 256, E b n d * tr Wq (ix2 d e)) h

/-- The kernel's spread gate at column d is the reference's gate of d's head. -/
theorem gate_eq (E : Fin 8 → Fin 1024 → Fin 256 → EReal) (Wq : A2 256 256) (Wk : A2 1024 1024)
    (b : Fin 8) (m : Fin 1024) (d : Fin 256) :
    (∑ h : Fin 4, Ideal.logistic (∑ n : Fin 1024, Wk (ix2 m n) * qK E (tr Wq) mavg b n h) * rexp (ix2 h d))
      = kR (qR E Wq) Wk b (headOf d) m := by
  refine (spread (fun h => Ideal.logistic (∑ n : Fin 1024, Wk (ix2 m n) * qK E (tr Wq) mavg b n h)) d).trans ?_
  have hsum : (∑ n : Fin 1024, Wk (ix2 m n) * qK E (tr Wq) mavg b n (headOf d))
      = ∑ n : Fin 1024, qR E Wq b (headOf d) n * Wk (ix2 m n) :=
    Finset.sum_congr rfl (fun n _ => by rw [qK_eq, mul_comm])
  show Ideal.logistic (∑ n : Fin 1024, Wk (ix2 m n) * qK E (tr Wq) mavg b n (headOf d)) = _
  rw [hsum]
  unfold kR Ideal.logistic
  rw [ofBits_one]

/-- The kernel's output rows from the reference's embedded rows are the reference's output rows. -/
theorem out_eq (P : A3 8 1024 4096) (We : A2 256 4096) (be : A1 256) (pos : A3 1 1024 256)
    (Wq : A2 256 256) (Wk : A2 1024 1024) (Wv : A2 256 256) (Wo : A2 4096 256) (bo : A1 4096)
    (b : Fin 8) (m : Fin 1024) (p : Fin 4096) :
    outK (fun j => qK (embR P We be pos) (tr Wq) mavg (j 0) (j 1) (j 2)) Wk
      (fun j => embR P We be pos (j 0) (j 1) (j 2)) (tr Wv) rexp (tr Wo) bo b m p
      = outR P We be pos Wq Wk Wv Wo bo b m p := by
  unfold outK outR
  refine congrArg (· + bo (ix1 p)) (Finset.sum_congr rfl (fun d _ => ?_))
  show ((∑ d' : Fin 256, embR P We be pos b m d' * Wv (ix2 d d'))
      * (∑ h : Fin 4, Ideal.logistic (∑ n : Fin 1024, Wk (ix2 m n) * qK (embR P We be pos) (tr Wq) mavg b n h)
          * rexp (ix2 h d))) * Wo (ix2 p d) = _
  rw [gate_eq, mul_comm (∑ d' : Fin 256, _)]

/-- The kernel program's output patch rows are the reference program's. -/
theorem kernelOut_eq_referenceOut (P : A3 8 1024 4096) (We : A2 256 4096) (be : A1 256) (pos : A3 1 1024 256)
    (Wq : A2 256 256) (Wk : A2 1024 1024) (Wv : A2 256 256) (Wo : A2 4096 256) (bo : A1 4096) :
    kernelOut P We be pos Wq Wk Wv Wo bo = referenceOut P We be pos Wq Wk Wv Wo bo := by
  funext i
  unfold kernelOut referenceOut
  rw [embK_eq]
  exact out_eq P We be pos Wq Wk Wv Wo bo (i 0) (i 1) (i 2)

end Cert.Spec

end
-- ==== Proof.lean ====
/- The kernel program — patches unfolded on the host, a first kernel region that embeds each patch row and pools its
   queries to four heads through a 0/(1/64) matrix product, a second region that gates the value columns by the
   logistic of the mixed pooled queries (spread to columns through a 0/1 matrix product) and projects them back,
   and the host's fold to the image — computes, over the extended reals, the function the reference program
   computes with sums, a division by 64 and an explicit one over one plus the exponential.

   The frames of the two kernel programs are the generated ones; the reference's frame is its generated run with the
   result dropped; no operation was rewritten by the idealization, so that claim is trivial. For the value claim the
   kernel's run is read region by region: each region's output array is one whole-array function of the arrays it was
   entered with, the host's operations before the first region are read back to the arguments, and the two
   whole-array functions are equal by the law of sums proved over the specification. -/
import proofs.«116111_j1992864825604_1_alg».proof.Defs
import proofs.«116111_j1992864825604_1_alg».proof.Proof.Gen.Kernel
import proofs.«116111_j1992864825604_1_alg».proof.Proof.Gen.Kernel.Skeleton
import proofs.«116111_j1992864825604_1_alg».proof.Proof.Gen.Kernel.Launch
import proofs.«116111_j1992864825604_1_alg».proof.Proof.Gen.Kernel.Points
import proofs.«116111_j1992864825604_1_alg».proof.Proof.Gen.Kernel.Frame
import proofs.«116111_j1992864825604_1_alg».proof.Proof.Gen.KernelIdeal
import proofs.«116111_j1992864825604_1_alg».proof.Proof.Gen.KernelIdeal.Skeleton
import proofs.«116111_j1992864825604_1_alg».proof.Proof.Gen.KernelIdeal.Launch
import proofs.«116111_j1992864825604_1_alg».proof.Proof.Gen.KernelIdeal.Points
import proofs.«116111_j1992864825604_1_alg».proof.Proof.Gen.KernelIdeal.Frame
import proofs.«116111_j1992864825604_1_alg».proof.Proof.Gen.ReferenceIdeal
import proofs.«116111_j1992864825604_1_alg».proof.Proof.Gen.ReferenceIdeal.Run
import proofs.«116111_j1992864825604_1_alg».proof.Proof.Gen.ReferenceIdeal.Read
import proofs.«116111_j1992864825604_1_alg».proof.Proof.Gen.Pre_finite_inputs
import proofs.«116111_j1992864825604_1_alg».proof.Proof.KernelValue
import proofs.«116111_j1992864825604_1_alg».proof.Proof.RefValue
import proofs.«116111_j1992864825604_1_alg».proof.Proof.Algebra
import Idealize.ShloMosaic.Adequacy
import Idealize.ShloMosaic.Init

set_option maxRecDepth 16384

noncomputable section

namespace Cert.Proof

open Idealize.ShloMosaic Idealize.ShloMosaic.TcCoe Idealize.SL.Sem

/-- The reference's result, the fold of its output patch rows, is the fold of the kernel's function of the same
    arguments: the two folds are the same re-layouts, and the patch rows agree by the law of sums. -/
theorem result_bridge (x0 : (⟨Cert.ReferenceIdeal.S8x1x64x256x256, .f32⟩ : BufTy).Contents (Elt Ideal))
    (x1 : (⟨Cert.ReferenceIdeal.S256x4096, .f32⟩ : BufTy).Contents (Elt Ideal))
    (x2 : (⟨Cert.ReferenceIdeal.S256, .f32⟩ : BufTy).Contents (Elt Ideal))
    (x3 : (⟨Cert.ReferenceIdeal.S1x1024x256, .f32⟩ : BufTy).Contents (Elt Ideal))
    (x4 : (⟨Cert.ReferenceIdeal.S256x256, .f32⟩ : BufTy).Contents (Elt Ideal))
    (x5 : (⟨Cert.ReferenceIdeal.S1024x1024, .f32⟩ : BufTy).Contents (Elt Ideal))
    (x6 : (⟨Cert.ReferenceIdeal.S256x256, .f32⟩ : BufTy).Contents (Elt Ideal))
    (x7 : (⟨Cert.ReferenceIdeal.S4096x256, .f32⟩ : BufTy).Contents (Elt Ideal))
    (x8 : (⟨Cert.ReferenceIdeal.S4096, .f32⟩ : BufTy).Contents (Elt Ideal)) :
    Cert.ReferenceIdeal.Read.val_main_v36 (F := Ideal) x0 x1 x2 x3 x4 x5 x6 x7 x8
      = Cert.KernelIdeal.KernelValue.fold
          (Cert.Spec.kernelOut (Cert.KernelIdeal.HostIn.patches x0) x1 x2 x3 x4 x5 x6 x7 x8) := by
  unfold Cert.ReferenceIdeal.Read.val_main_v36 Cert.ReferenceIdeal.Read.val_main_v35 Cert.ReferenceIdeal.Read.val_main_v34
  rw [Cert.ReferenceIdeal.RefValue.v33_eq, ← Cert.Spec.kernelOut_eq_referenceOut]
  rfl

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs run, and from memories agreeing on the arguments they end with the same image. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v36_eq, result_bridge, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
